-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S1024x8192 : Shape := ⟨2, ![1024, 8192]⟩
abbrev S64x1024 : Shape := ⟨2, ![64, 1024]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S64x8192 .f32) (main_arg1 : IVec S1024x8192 32) (main_arg2 : IVec S64x1024 32) (main_arg3 : FVec F S64x8192 .f32) (main_arg4 : FVec F S8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x8192 .f32 := Host.absf main_arg3
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S64x8192 : Shape := ⟨2, ![64, 8192]⟩
abbrev S1024x8192 : Shape := ⟨2, ![1024, 8192]⟩
abbrev S64x1024 : Shape := ⟨2, ![64, 1024]⟩
abbrev S8192 : Shape := ⟨1, ![8192]⟩
abbrev S8 : Shape := ⟨1, ![8]⟩
abbrev S_ : Shape := ⟨0, ![]⟩
abbrev S64x1024x1 : Shape := ⟨3, ![64, 1024, 1]⟩
abbrev S1x1x8 : Shape := ⟨3, ![1, 1, 8]⟩
abbrev S64x1024x8 : Shape := ⟨3, ![64, 1024, 8]⟩
abbrev S64x64x128 : Shape := ⟨3, ![64, 64, 128]⟩
abbrev S64x64 : Shape := ⟨2, ![64, 64]⟩
abbrev S1x8192 : Shape := ⟨2, ![1, 8192]⟩
abbrev S128x2048 : Shape := ⟨2, ![128, 2048]⟩
abbrev S8x2048 : Shape := ⟨2, ![8, 2048]⟩
abbrev S64x2048 : Shape := ⟨2, ![64, 2048]⟩
abbrev S1x8x1 : Shape := ⟨3, ![1, 8, 1]⟩
abbrev S16x2048 : Shape := ⟨2, ![16, 2048]⟩
abbrev S16x1x2048 : Shape := ⟨3, ![16, 1, 2048]⟩
abbrev S16x8x2048 : Shape := ⟨3, ![16, 8, 2048]⟩
abbrev S64x128 : Shape := ⟨2, ![64, 128]⟩
abbrev S1x2048 : Shape := ⟨2, ![1, 2048]⟩
abbrev S2048 : Shape := ⟨1, ![2048]⟩

abbrev nBuf : Space → Nat
  | .hbm => 41
  | .vmem => 10
  | .smem => 0
  | _ => 0

abbrev bufTy : (tb : Table) → Fin (tcTables nBuf tb) → BufTy
  | .hbm, ⟨0, _⟩ => ⟨S64x8192, .f32⟩
  | .hbm, ⟨1, _⟩ => ⟨S1024x8192, .i32⟩
  | .hbm, ⟨2, _⟩ => ⟨S64x1024, .i32⟩
  | .hbm, ⟨3, _⟩ => ⟨S64x8192, .f32⟩
  | .hbm, ⟨4, _⟩ => ⟨S8192, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S64x1024x1, .i32⟩
  | .hbm, ⟨10, _⟩ => ⟨S1x1x8, .i32⟩
  | .hbm, ⟨11, _⟩ => ⟨S64x1024x8, .i32⟩
  | .hbm, ⟨12, _⟩ => ⟨S64x1024x8, .i32⟩
  | .hbm, ⟨13, _⟩ => ⟨S64x1024x8, .i32⟩
  | .hbm, ⟨14, _⟩ => ⟨S_, .i32⟩
  | .hbm, ⟨15, _⟩ => ⟨S64x1024x8, .i32⟩
  | .hbm, ⟨16, _⟩ => ⟨S64x1024x8, .i32⟩
  | .hbm, ⟨17, _⟩ => ⟨S64x8192, .i32⟩
  | .hbm, ⟨18, _⟩ => ⟨S_, .i32⟩
  | .hbm, ⟨19, _⟩ => ⟨S64x8192, .i32⟩
  | .hbm, ⟨20, _⟩ => ⟨S64x8192, .i32⟩
  | .hbm, ⟨21, _⟩ => ⟨S_, .i32⟩
  | .hbm, ⟨22, _⟩ => ⟨S64x8192, .i32⟩
  | .hbm, ⟨23, _⟩ => ⟨S64x8192, .i1⟩
  | .hbm, ⟨24, _⟩ => ⟨S_, .i32⟩
  | .hbm, ⟨25, _⟩ => ⟨S_, .i32⟩
  | .hbm, ⟨26, _⟩ => ⟨S64x8192, .i32⟩
  | .hbm, ⟨27, _⟩ => ⟨S64x8192, .i32⟩
  | .hbm, ⟨28, _⟩ => ⟨S64x8192, .f32⟩
  | .hbm, ⟨29, _⟩ => ⟨S64x8192, .f32⟩
  | .hbm, ⟨30, _⟩ => ⟨S64x8192, .bf16⟩
  | .hbm, ⟨31, _⟩ => ⟨S64x8192, .f32⟩
  | .hbm, ⟨32, _⟩ => ⟨S64x64x128, .f32⟩
  | .hbm, ⟨33, _⟩ => ⟨S_, .f32⟩
  | .hbm, ⟨34, _⟩ => ⟨S64x64, .f32⟩
  | .hbm, ⟨35, _⟩ => ⟨S64x8192, .f32⟩
  | .hbm, ⟨36, _⟩ => ⟨S64x8192, .f32⟩
  | .hbm, ⟨37, _⟩ => ⟨S1x8192, .f32⟩
  | .hbm, ⟨38, _⟩ => ⟨S64x8192, .f32⟩
  | .hbm, ⟨39, _⟩ => ⟨S64x8192, .f32⟩
  | .hbm, ⟨40, _⟩ => ⟨S64x8192, .f32⟩
  | .local _ .vmem, ⟨0, _⟩ => ⟨S64x8192, .bf16⟩
  | .local _ .vmem, ⟨1, _⟩ => ⟨S128x2048, .i32⟩
  | .local _ .vmem, ⟨2, _⟩ => ⟨S128x2048, .i32⟩
  | .local _ .vmem, ⟨3, _⟩ => ⟨S8x2048, .f32⟩
  | .local _ .vmem, ⟨4, _⟩ => ⟨S8x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v155 : BitVec 1 := Scalar.cmpi .eq arg1 c7_i32
  let v156 : BitVec 32 := Scalar.extui v155
  let c0_i32_24 : BitVec 32 := 0#32
  let v157 : BitVec 1 := Scalar.cmpi .ne v156 c0_i32_24
  v157

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8 : S_.BroadcastsInDim S8 (![] : Fin 0 → Fin S8.rank)
  bcast_S64x1024_S64x1024x1_0_1 : S64x1024.BroadcastsInDim S64x1024x1 (![0, 1] : Fin 2 → Fin S64x1024x1.rank)
  bcast_S8_S1x1x8_2 : S8.BroadcastsInDim S1x1x8 (![2] : Fin 1 → Fin S1x1x8.rank)
  bcast_S64x1024x1_S64x1024x8_0_1_2 : S64x1024x1.BroadcastsInDim S64x1024x8 (![0, 1, 2] : Fin 3 → Fin S64x1024x8.rank)
  bcast_S1x1x8_S64x1024x8_0_1_2 : S1x1x8.BroadcastsInDim S64x1024x8 (![0, 1, 2] : Fin 3 → Fin S64x1024x8.rank)
  bcast_S_S64x1024x8 : S_.BroadcastsInDim S64x1024x8 (![] : Fin 0 → Fin S64x1024x8.rank)
  shapeCasts_S64x1024x8_S64x8192 : S64x1024x8.ShapeCasts S64x8192
  bcast_S_S64x8192 : S_.BroadcastsInDim S64x8192 (![] : Fin 0 → Fin S64x8192.rank)
  bitsLt_bf16_f32 : FTy.bits .bf16 < FTy.bits .f32
  shapeCasts_S64x8192_S64x64x128 : S64x8192.ShapeCasts S64x64x128
  reducesTo_S64x64x128_S64x64_d2 : S64x64x128.ReducesTo [2] S64x64
  h_S_ : 0 < S_.numel
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  h_S64x1024 : 0 < S64x1024.numel
  shapeCasts_S64x1024_S64x1024 : S64x1024.ShapeCasts S64x1024
  inb_S128x2048_S128x2048_0_0 : ∀ a, (![0, 0] : Fin 2 → Nat) a + S128x2048.size a ≤ S128x2048.size a
  h_S128x2048 : 0 < S128x2048.numel
  inb_S8x2048_S8x2048_0_0 : ∀ a, (![0, 0] : Fin 2 → Nat) a + S8x2048.size a ≤ S8x2048.size a
  h_S8x2048 : 0 < S8x2048.numel
  iota_S1x8x1_d1_w32 : S1x8x1.Iotas .tc 32 [1]
  slices_S128x2048_o0_0_S16x2048 : S128x2048.Slices ![0, 0] S16x2048
  shapeCasts_S16x2048_S16x1x2048 : S16x2048.ShapeCasts S16x1x2048
  broadcasts_S16x1x2048_S16x8x2048 : S16x1x2048.Broadcasts S16x8x2048
  broadcasts_S1x8x1_S16x8x2048 : S1x8x1.Broadcasts S16x8x2048
  shapeCasts_S16x8x2048_S128x2048 : S16x8x2048.ShapeCasts S128x2048
  slices_S64x1024_o0_0_S64x128 : S64x1024.Slices ![0, 0] S64x128
  slices_S8x2048_o0_0_S1x2048 : S8x2048.Slices ![0, 0] S1x2048
  shapeCasts_S1x2048_S2048 : S1x2048.ShapeCasts S2048
  shapeCasts_S2048_S1x2048 : S2048.ShapeCasts S1x2048
  broadcasts_S1x2048_S64x2048 : S1x2048.Broadcasts S64x2048
  slices_S128x2048_o16_0_S16x2048 : S128x2048.Slices ![16, 0] S16x2048
  slices_S64x1024_o0_128_S64x128 : S64x1024.Slices ![0, 128] S64x128
  slices_S8x2048_o1_0_S1x2048 : S8x2048.Slices ![1, 0] S1x2048
  slices_S128x2048_o32_0_S16x2048 : S128x2048.Slices ![32, 0] S16x2048
  slices_S64x1024_o0_256_S64x128 : S64x1024.Slices ![0, 256] S64x128
  slices_S8x2048_o2_0_S1x2048 : S8x2048.Slices ![2, 0] S1x2048
  slices_S128x2048_o48_0_S16x2048 : S128x2048.Slices ![48, 0] S16x2048
  slices_S64x1024_o0_384_S64x128 : S64x1024.Slices ![0, 384] S64x128
  slices_S8x2048_o3_0_S1x2048 : S8x2048.Slices ![3, 0] S1x2048
  slices_S128x2048_o64_0_S16x2048 : S128x2048.Slices ![64, 0] S16x2048
  slices_S64x1024_o0_512_S64x128 : S64x1024.Slices ![0, 512] S64x128
  slices_S8x2048_o4_0_S1x2048 : S8x2048.Slices ![4, 0] S1x2048
  slices_S128x2048_o80_0_S16x2048 : S128x2048.Slices ![80, 0] S16x2048
  slices_S64x1024_o0_640_S64x128 : S64x1024.Slices ![0, 640] S64x128
  slices_S8x2048_o5_0_S1x2048 : S8x2048.Slices ![5, 0] S1x2048
  slices_S128x2048_o96_0_S16x2048 : S128x2048.Slices ![96, 0] S16x2048
  slices_S64x1024_o0_768_S64x128 : S64x1024.Slices ![0, 768] S64x128
  slices_S8x2048_o6_0_S1x2048 : S8x2048.Slices ![6, 0] S1x2048
  slices_S128x2048_o112_0_S16x2048 : S128x2048.Slices ![112, 0] S16x2048
  slices_S64x1024_o0_896_S64x128 : S64x1024.Slices ![0, 896] S64x128
  slices_S8x2048_o7_0_S1x2048 : S8x2048.Slices ![7, 0] S1x2048
  dot_S64x64_S64x8192_S64x8192_1_0_0_1_n_n_wf : DotDims.WF S64x64 S64x8192 S64x8192 [1] [0] [0] [1] [] []
  dot_S64x128_S128x2048_S64x2048_1_0_0_1_n_n_wf : DotDims.WF S64x128 S128x2048 S64x2048 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S64x1024.size a ≤ S64x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .bf16 = 32 ∨ (Rect.block (s := S64x8192) S64x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S1024x8192.size a
  hwx0_1 : ∀ i : grid0.Coords, EltTy.bits .i32 = 32 ∨ (Rect.block (s := S1024x8192) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S64x8192.size a
  hwx0_2 : ∀ i : grid0.Coords, EltTy.bits .f32 = 32 ∨ (Rect.block (s := S64x8192) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x8192.size a
  hwx0_3 : ∀ i : grid0.Coords, EltTy.bits .f32 = 32 ∨ (Rect.block (s := S64x8192) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x8192.size a
  hwx0_4 : ∀ i : grid0.Coords, EltTy.bits .f32 = 32 ∨ (Rect.block (s := S64x8192) S64x2048.size (cc0_transform_4 i) (hinb0_4 i)).WholeWords (EltTy.packing .f32)

variable [Facts₀]

def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf
def dot_S64x128_S128x2048_S64x2048_1_0_0_1_n_n : DotDims S64x128 S128x2048 S64x2048 where
  lhsContracting := [1]
  rhsContracting := [0]
  lhsNonContracting := [0]
  rhsNonContracting := [1]
  lhsBatch := []
  rhsBatch := []
  wf := dot_S64x128_S128x2048_S64x2048_1_0_0_1_n_n_wf

abbrev win0_0 : Pipeline.Window sig grid0 :=
  Pipeline.Window.ofSpec (Memref.whole main_v18) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x8192 : Shape := ⟨2, ![64, 8192]⟩
abbrev S1024x8192 : Shape := ⟨2, ![1024, 8192]⟩
abbrev S64x1024 : Shape := ⟨2, ![64, 1024]⟩
abbrev S8192 : Shape := ⟨1, ![8192]⟩
abbrev S8 : Shape := ⟨1, ![8]⟩
abbrev S_ : Shape := ⟨0, ![]⟩
abbrev S1024x1x8192 : Shape := ⟨3, ![1024, 1, 8192]⟩
abbrev S1x8x1 : Shape := ⟨3, ![1, 8, 1]⟩
abbrev S1024x8x8192 : Shape := ⟨3, ![1024, 8, 8192]⟩
abbrev S8192x8192 : Shape := ⟨2, ![8192, 8192]⟩
abbrev S64x1024x1 : Shape := ⟨3, ![64, 1024, 1]⟩
abbrev S1x1x8 : Shape := ⟨3, ![1, 1, 8]⟩
abbrev S64x1024x8 : Shape := ⟨3, ![64, 1024, 8]⟩
abbrev S8192x1 : Shape := ⟨2, ![8192, 1]⟩
abbrev S1x8192 : Shape := ⟨2, ![1, 8192]⟩

abbrev nBuf : Space → Nat
  | .hbm => 82
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S1024x8192, .i32⟩
  | .hbm, ⟨2, _⟩ => ⟨S64x1024, .i32⟩
  | .hbm, ⟨3, _⟩ => ⟨S64x8192, .f32⟩
  | .hbm, ⟨4, _⟩ => ⟨S8192, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1024x1x8192, .i32⟩
  | .hbm, ⟨10, _⟩ => ⟨S1x8x1, .i32⟩
  | .hbm, ⟨11, _⟩ => ⟨S1024x8x8192, .i32⟩
  | .hbm, ⟨12, _⟩ => ⟨S1024x8x8192, .i32⟩
  | .hbm, ⟨13, _⟩ => ⟨S1024x8x8192, .i32⟩
  | .hbm, ⟨14, _⟩ => ⟨S_, .i32⟩
  | .hbm, ⟨15, _⟩ => ⟨S1024x8x8192, .i32⟩
  | .hbm, ⟨16, _⟩ => ⟨S1024x8x8192, .i32⟩
  | .hbm, ⟨17, _⟩ => ⟨S8192x8192, .i32⟩
  | .hbm, ⟨18, _⟩ => ⟨S8192x8192, .f32⟩
  | .hbm, ⟨19, _⟩ => ⟨S64x1024x1, .i32⟩
  | .hbm, ⟨20, _⟩ => ⟨S1x1x8, .i32⟩
  | .hbm, ⟨21, _⟩ => ⟨S64x1024x8, .i32⟩
  | .hbm, ⟨22, _⟩ => ⟨S64x1024x8, .i32⟩
  | .hbm, ⟨23, _⟩ => ⟨S64x1024x8, .i32⟩
  | .hbm, ⟨24, _⟩ => ⟨S_, .i32⟩
  | .hbm, ⟨25, _⟩ => ⟨S64x1024x8, .i32⟩
  | .hbm, ⟨26, _⟩ => ⟨S64x1024x8, .i32⟩
  | .hbm, ⟨27, _⟩ => ⟨S64x8192, .i32⟩
  | .hbm, ⟨28, _⟩ => ⟨S_, .i32⟩
  | .hbm, ⟨29, _⟩ => ⟨S64x8192, .i32⟩
  | .hbm, ⟨30, _⟩ => ⟨S64x8192, .i32⟩
  | .hbm, ⟨31, _⟩ => ⟨S_, .i32⟩
  | .hbm, ⟨32, _⟩ => ⟨S64x8192, .i32⟩
  | .hbm, ⟨33, _⟩ => ⟨S64x8192, .i1⟩
  | .hbm, ⟨34, _⟩ => ⟨S_, .i32⟩
  | .hbm, ⟨35, _⟩ => ⟨S_, .i32⟩
  | .hbm, ⟨36, _⟩ => ⟨S64x8192, .i32⟩
  | .hbm, ⟨37, _⟩ => ⟨S64x8192, .i32⟩
  | .hbm, ⟨38, _⟩ => ⟨S64x8192, .f32⟩
  | .hbm, ⟨39, _⟩ => ⟨S8192, .i32⟩
  | .hbm, ⟨40, _⟩ => ⟨S_, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S8192x8192, .f32⟩
  | .hbm, ⟨67, _⟩ => ⟨S8192x8192, .f32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S8192x8192, .f32⟩
  | .hbm, ⟨77, _⟩ => ⟨S8192x8192, .f32⟩
  | .hbm, ⟨78, _⟩ => ⟨S64x8192, .f32⟩
  | .hbm, ⟨79, _⟩ => ⟨S1x8192, .f32⟩
  | .hbm, ⟨80, _⟩ => ⟨S64x8192, .f32⟩
  | .hbm, ⟨81, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_c_7 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S1024x8192_S1024x1x8192_0_2 : S1024x8192.BroadcastsInDim S1024x1x8192 (![0, 2] : Fin 2 → Fin S1024x1x8192.rank)
  bcast_S8_S1x8x1_1 : S8.BroadcastsInDim S1x8x1 (![1] : Fin 1 → Fin S1x8x1.rank)
  bcast_S1024x1x8192_S1024x8x8192_0_1_2 : S1024x1x8192.BroadcastsInDim S1024x8x8192 (![0, 1, 2] : Fin 3 → Fin S1024x8x8192.rank)
  bcast_S1x8x1_S1024x8x8192_0_1_2 : S1x8x1.BroadcastsInDim S1024x8x8192 (![0, 1, 2] : Fin 3 → Fin S1024x8x8192.rank)
  bcast_S_S1024x8x8192 : S_.BroadcastsInDim S1024x8x8192 (![] : Fin 0 → Fin S1024x8x8192.rank)
  shapeCasts_S1024x8x8192_S8192x8192 : S1024x8x8192.ShapeCasts S8192x8192
  bcast_S64x1024_S64x1024x1_0_1 : S64x1024.BroadcastsInDim S64x1024x1 (![0, 1] : Fin 2 → Fin S64x1024x1.rank)
  bcast_S8_S1x1x8_2 : S8.BroadcastsInDim S1x1x8 (![2] : Fin 1 → Fin S1x1x8.rank)
  bcast_S64x1024x1_S64x1024x8_0_1_2 : S64x1024x1.BroadcastsInDim S64x1024x8 (![0, 1, 2] : Fin 3 → Fin S64x1024x8.rank)
  bcast_S1x1x8_S64x1024x8_0_1_2 : S1x1x8.BroadcastsInDim S64x1024x8 (![0, 1, 2] : Fin 3 → Fin S64x1024x8.rank)
  bcast_S_S64x1024x8 : S_.BroadcastsInDim S64x1024x8 (![] : Fin 0 → Fin S64x1024x8.rank)
  shapeCasts_S64x1024x8_S64x8192 : S64x1024x8.ShapeCasts S64x8192
  bcast_S_S64x8192 : S_.BroadcastsInDim S64x8192 (![] : Fin 0 → Fin S64x8192.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  gather_S64x8192_S8192x1_S8192x8192_1_0_n_n_0_1_18192_wf : GatherDims.WF S64x8192 S8192x1 S8192x8192 [1] [0] [] [0] [] 1 ![1, 8192]
  dot_S64x8192_S8192x8192_S64x8192_1_0_0_1_n_n_wf : DotDims.WF S64x8192 S8192x8192 S64x8192 [1] [0] [0] [1] [] []

variable [Facts₀]

def gather_S64x8192_S8192x1_S8192x8192_1_0_n_n_0_1_18192 : GatherDims S64x8192 S8192x1 S8192x8192 where
  offsetDims := [1]
  collapsedSliceDims := [0]
  operandBatchingDims := []
  startIndicesBatchingDims := []
  startIndexMap := [0]
  indexVectorDim := 1
  sliceSizes := ![1, 8192]
  wf := gather_S64x8192_S8192x1_S8192x8192_1_0_n_n_0_1_18192_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.Spec.lean ====
/-
  The weight-only 4-bit quantized linear layer as one function of the argument arrays, index by index.

  A 32-bit word of the packed weight holds eight 4-bit nibbles: nibble `j` of a word `q` is
  `(q >> 4j) & 15`, a number in 0..15. Row `i` of the dequantized weight (0 ≤ i < 8192) comes from packed
  row `i / 8`, nibble `i % 8`; it belongs to group `i / 128`. The zero point of group `G` at output
  column `n` comes from word `n / 8` of row `G` of the packed zero points, nibble `n % 8`, plus one,
  wrapped to zero above 15.

  `refVal` is the layer as the reference computes it:
      out[p, n] = Σ_i x[p, i] · ((w[i, n] − zp[i/128, n]) · s[i/128, n]) + bias[n].
  `kerVal` is the same number as the kernel arranges it: group by group the raw nibbles are multiplied
  with x and only then scaled, and the zero points enter once through the group sums of x:
      out[p, n] = Σ_G (Σ_j x[p, 128G+j] · w[128G+j, n]) · s[G, n]
                  + (−Σ_G (Σ_j x[p, 128G+j]) · (zp[G, n] · s[G, n]) + bias[n]).
-/
import Idealize.ShloMosaic.PureOps.Ideal
import Idealize.ShloMosaic.Lib.ValueIdx

noncomputable section

namespace Cert.WolSpec

open Idealize.ShloMosaic Idealize.ShloMosaic.ValueIdx

/-- x, scales, the unpacked zero points and the output: [64, 8192]. -/
abbrev SX : Shape := ⟨2, ![64, 8192]⟩
/-- the packed weight: [1024, 8192]. -/
abbrev SQ : Shape := ⟨2, ![1024, 8192]⟩
/-- the packed zero points: [64, 1024]. -/
abbrev SZ : Shape := ⟨2, ![64, 1024]⟩
/-- the bias: [8192]. -/
abbrev SB : Shape := ⟨1, ![8192]⟩

/-- The shift amount of nibble `j`: `j · 4`, as both programs compute it (an iota times the constant 4). -/
def shamt (j : Fin 8) : BitVec 32 := IntOp.muli (BitVec.ofNat 32 j.val) 4#32

/-- Nibble `j` of the word `q`. -/
def nib (q : BitVec 32) (j : Fin 8) : BitVec 32 := IntOp.andi (IntOp.shrsi .host q (shamt j)) 15#32

/-- The zero point stored in nibble `j` of `q`: the nibble plus one, and zero if that exceeds 15. -/
def zpw (q : BitVec 32) (j : Fin 8) : BitVec 32 :=
  Scalar.select (IntOp.cmpi .sgt (IntOp.addi (nib q j) 1#32) 15#32) 0#32 (IntOp.addi (nib q j) 1#32)

/-- Input channel `128·G + j`: channel `j` of group `G`. -/
abbrev cat (G : Fin 64) (j : Fin 128) : Fin 8192 := ⟨128 * G.val + j.val, by omega⟩
/-- The group of input channel `i`. -/
abbrev grpOf (i : Fin 8192) : Fin 64 := ⟨i.val / 128, by omega⟩
/-- The packed row (or packed column) that holds position `i`. -/
abbrev rowOf (i : Fin 8192) : Fin 1024 := ⟨i.val / 8, by omega⟩
/-- The nibble of that word that holds position `i`. -/
abbrev lane (i : Fin 8192) : Fin 8 := ⟨i.val % 8, by omega⟩

/-- The raw (unscaled, unshifted) weight at input channel `i`, output column `n`: an integer 0..15 as a real. -/
def wv (qw : SQ.Idx → BitVec 32) (i n : Fin 8192) : EReal :=
  (((nib (qw (ix2 (rowOf i) n)) (lane i)).toInt : ℝ) : EReal)

/-- The zero point of group `G` at output column `n`, as a real. -/
def zv (qz : SZ.Idx → BitVec 32) (G : Fin 64) (n : Fin 8192) : EReal :=
  (((zpw (qz (ix2 G (rowOf n))) (lane n)).toInt : ℝ) : EReal)

/-- The layer as the reference computes it. -/
def refVal (x : SX.Idx → EReal) (qw : SQ.Idx → BitVec 32) (qz : SZ.Idx → BitVec 32) (s : SX.Idx → EReal)
    (b : SB.Idx → EReal) (p : Fin 64) (n : Fin 8192) : EReal :=
  (∑ i : Fin 8192, x (ix2 p i) * ((wv qw i n - zv qz (grpOf i) n) * s (ix2 (grpOf i) n))) + b (ix1 n)

/-- The output array: `refVal` at every index. -/
def G (x : SX.Idx → EReal) (qw : SQ.Idx → BitVec 32) (qz : SZ.Idx → BitVec 32) (s : SX.Idx → EReal)
    (b : SB.Idx → EReal) : SX.Idx → EReal :=
  fun o => refVal x qw qz s b (o 0) (o 1)

/-- One group's share of the kernel's accumulator: x against the raw nibbles over the group's 128 channels, then
    the group's scale. -/
def grpTerm (x : SX.Idx → EReal) (qw : SQ.Idx → BitVec 32) (s : SX.Idx → EReal) (p : Fin 64) (n : Fin 8192)
    (G : Fin 64) : EReal :=
  (∑ j : Fin 128, x (ix2 p (cat G j)) * wv qw (cat G j) n) * s (ix2 G n)

/-- What the kernel's wrapper computes on the host and the kernel adds at the end: minus the zero points against the
    group sums of x, plus the bias. -/
def nzbVal (x : SX.Idx → EReal) (qz : SZ.Idx → BitVec 32) (s : SX.Idx → EReal) (b : SB.Idx → EReal)
    (p : Fin 64) (n : Fin 8192) : EReal :=
  -(∑ G : Fin 64, (∑ j : Fin 128, x (ix2 p (cat G j))) * (zv qz G n * s (ix2 G n))) + b (ix1 n)

/-- The layer as the kernel arranges it. -/
def kerVal (x : SX.Idx → EReal) (qw : SQ.Idx → BitVec 32) (qz : SZ.Idx → BitVec 32) (s : SX.Idx → EReal)
    (b : SB.Idx → EReal) (p : Fin 64) (n : Fin 8192) : EReal :=
  (∑ G : Fin 64, grpTerm x qw s p n G) + nzbVal x qz s b p n

/-- A shift amount is below the word width, so the shift is the ordinary arithmetic shift on either unit. -/
theorem shamt_lt (j : Fin 8) : (shamt j).toNat < 32 := by
  revert j; decide

/-- The vector unit's and the host's arithmetic right shift agree at a nibble's shift amount. -/
theorem shrsi_vector_eq_host (q : BitVec 32) (j : Fin 8) :
    IntOp.shrsi .vector q (shamt j) = IntOp.shrsi .host q (shamt j) := by
  unfold IntOp.shrsi
  rw [if_pos (shamt_lt j), if_pos (shamt_lt j)]

end Cert.WolSpec

end
-- ==== Proof.Algebra.lean ====
/-
  The one law that joins the two arrangements of the layer. With x, the scales and the bias real (the raw weights and
  the zero points are integers, hence real), every term is a real number, and over the reals
      Σ_i x_i · ((w_i − z_{g(i)}) · s_{g(i)})
        = Σ_G (Σ_j x_{G,j} · w_{G,j}) · s_G − Σ_G (Σ_j x_{G,j}) · (z_G · s_G)
  by distributivity and by splitting the sum over the 8192 channels into 64 groups of 128.
-/
import proofs.«417928_j19765439496679_3_alg».proof.Proof.Spec

noncomputable section

namespace Cert.WolSpec

open Idealize.ShloMosaic Idealize.ShloMosaic.ValueIdx

/-- The coercion of the reals into the extended reals commutes with finite sums. -/
theorem coe_finsum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Channel `j` of group `G` lies in group `G`. -/
theorem grpOf_cat (G : Fin 64) (j : Fin 128) : grpOf (cat G j) = G := by
  apply Fin.ext
  show (128 * G.val + j.val) / 128 = G.val
  omega

/-- A sum over the 8192 channels is the sum over the 64 groups of the sums over each group's 128 channels: the pair
    `(G, j)` names channel `j + 128·G`, and every channel has exactly one such name. -/
theorem sum_split (f : Fin 8192 → ℝ) :
    ∑ i : Fin 8192, f i = ∑ G : Fin 64, ∑ j : Fin 128, f (cat G j) := by
  calc ∑ i : Fin 8192, f i
      = ∑ q : Fin 64 × Fin 128, f (finProdFinEquiv q) :=
        (Equiv.sum_comp (finProdFinEquiv (m := 64) (n := 128)) f).symm
    _ = ∑ G : Fin 64, ∑ j : Fin 128, f (finProdFinEquiv (G, j)) := Fintype.sum_prod_type _
    _ = ∑ G : Fin 64, ∑ j : Fin 128, f (cat G j) := by
        refine Finset.sum_congr rfl fun G _ => Finset.sum_congr rfl fun j _ => ?_
        congr 1
        apply Fin.ext
        show j.val + 128 * G.val = 128 * G.val + j.val
        omega

/-- The law over the reals. -/
theorem real_law (xr wr : Fin 8192 → ℝ) (zr sr : Fin 64 → ℝ) (br : ℝ) :
    (∑ G : Fin 64, (∑ j : Fin 128, xr (cat G j) * wr (cat G j)) * sr G)
        + (-(∑ G : Fin 64, (∑ j : Fin 128, xr (cat G j)) * (zr G * sr G)) + br)
      = (∑ i : Fin 8192, xr i * ((wr i - zr (grpOf i)) * sr (grpOf i))) + br := by
  have hG : ∀ G : Fin 64,
      ∑ j : Fin 128, xr (cat G j) * ((wr (cat G j) - zr (grpOf (cat G j))) * sr (grpOf (cat G j)))
        = (∑ j : Fin 128, xr (cat G j) * wr (cat G j)) * sr G
            - (∑ j : Fin 128, xr (cat G j)) * (zr G * sr G) := by
    intro G
    rw [Finset.sum_mul, Finset.sum_mul, ← Finset.sum_sub_distrib]
    refine Finset.sum_congr rfl fun j _ => ?_
    rw [grpOf_cat]
    ring
  rw [sum_split (fun i => xr i * ((wr i - zr (grpOf i)) * sr (grpOf i)))]
  rw [Finset.sum_congr rfl (fun G _ => hG G), Finset.sum_sub_distrib]
  ring

/-- The law over the extended reals, for functions that take real values. -/
theorem ereal_law (X W : Fin 8192 → EReal) (Z S : Fin 64 → EReal) (B : EReal)
    (xr wr : Fin 8192 → ℝ) (zr sr : Fin 64 → ℝ) (br : ℝ)
    (hX : ∀ i, X i = (xr i : EReal)) (hW : ∀ i, W i = (wr i : EReal))
    (hZ : ∀ G, Z G = (zr G : EReal)) (hS : ∀ G, S G = (sr G : EReal)) (hB : B = (br : EReal)) :
    (∑ G : Fin 64, (∑ j : Fin 128, X (cat G j) * W (cat G j)) * S G)
        + (-(∑ G : Fin 64, (∑ j : Fin 128, X (cat G j)) * (Z G * S G)) + B)
      = (∑ i : Fin 8192, X i * ((W i - Z (grpOf i)) * S (grpOf i))) + B := by
  simp only [hX, hW, hZ, hS, hB]
  simp only [← EReal.coe_mul, ← EReal.coe_sub, ← coe_finsum, ← EReal.coe_neg, ← EReal.coe_add]
  rw [EReal.coe_eq_coe_iff]
  exact real_law xr wr zr sr br

/-- The kernel's arrangement equals the reference's when the float inputs are real-valued. -/
theorem kerVal_eq_refVal (x : SX.Idx → EReal) (qw : SQ.Idx → BitVec 32) (qz : SZ.Idx → BitVec 32) (s : SX.Idx → EReal)
    (b : SB.Idx → EReal) (hx : ∀ i, ∃ r : ℝ, x i = (r : EReal)) (hs : ∀ i, ∃ r : ℝ, s i = (r : EReal))
    (hb : ∀ i, ∃ r : ℝ, b i = (r : EReal)) (p : Fin 64) (n : Fin 8192) :
    kerVal x qw qz s b p n = refVal x qw qz s b p n := by
  choose xr hxr using hx
  choose sr hsr using hs
  choose br hbr using hb
  unfold kerVal refVal grpTerm nzbVal
  exact ereal_law (fun i => x (ix2 p i)) (fun i => wv qw i n) (fun G => zv qz G n) (fun G => s (ix2 G n)) (b (ix1 n))
    (fun i => xr (ix2 p i)) (fun i => ((nib (qw (ix2 (rowOf i) n)) (lane i)).toInt : ℝ))
    (fun G => ((zpw (qz (ix2 G (rowOf n))) (lane n)).toInt : ℝ)) (fun G => sr (ix2 G n)) (br (ix1 n))
    (fun i => hxr _) (fun i => rfl) (fun G => rfl) (fun G => hsr _) (hbr _)

end Cert.WolSpec

end
-- ==== Proof.Finite.lean ====
/-
  From the precondition to numbers: `finite_inputs` says every entry of x, of the scales and of the bias has
  absolute value below +∞; on the extended reals that makes each entry a real number.
-/
import proofs.«417928_j19765439496679_3_alg».proof.Pre_finite_inputs
import proofs.«417928_j19765439496679_3_alg».proof.Proof.Gen.Pre_finite_inputs
import Idealize.ShloMosaic.PureOps.Ideal
import Idealize.ShloMosaic.Lib.ReduceAll

noncomputable section

namespace Cert.WolFinite

open Idealize.ShloMosaic Cert.Pre_finite_inputs

/-- The rank-0 shape has exactly one index. -/
instance : Subsingleton S_.Idx := ⟨fun a b => funext fun d => d.elim0⟩

/-- An extended real whose absolute value (the larger of it and its negative) is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- The comparison `|v| < +∞` (against the word of +∞) coming out true makes `v` a real number. -/
theorem real_of_cmp (v : Ideal .f32)
    (h : FloatOps.cmpf .olt (FloatOps.hostAbsf v) (FloatOps.ofBits (F := Ideal) .f32 0x7F800000#32) = 1#1) :
    ∃ r : ℝ, (v : EReal) = (r : EReal) := by
  have htop : Ideal.ofBits .f32 0x7F800000#32 = ⊤ := by simp [Ideal.ofBits, Ideal.ieee]
  change Ideal.cmp .olt (max (v : EReal) (-(v : EReal))) (Ideal.ofBits .f32 0x7F800000#32) = 1#1 at h
  rw [htop] at h
  unfold Ideal.cmp at h
  by_cases hlt : max (v : EReal) (-(v : EReal)) < ⊤
  · exact real_of_abs_lt_top v hlt
  · simp [hlt] at h

/-- If the printed precondition evaluates to true, every float input is real-valued. -/
theorem real_of_pre (x : FVec Ideal S64x8192 .f32) (qw : IVec S1024x8192 32) (qz : IVec S64x1024 32)
    (s : FVec Ideal S64x8192 .f32) (b : FVec Ideal S8192 .f32)
    (h : Cert.Pre_finite_inputs.fn (F := Ideal) x qw qz s b = fun _ => 1#1) :
    (∀ i, ∃ r : ℝ, x i = (r : EReal)) ∧ (∀ i, ∃ r : ℝ, s i = (r : EReal)) ∧ (∀ i, ∃ r : ℝ, b i = (r : EReal)) := by
  have h0 := congrFun h (fun d => d.elim0)
  dsimp only [fn] at h0
  change IntOp.andi (IntOp.andi _ _) _ = 1#1 at h0
  obtain ⟨h12, h3⟩ := IntOp.andi_eq_one.1 h0
  obtain ⟨h1, h2⟩ := IntOp.andi_eq_one.1 h12
  refine ⟨fun i => ?_, fun i => ?_, fun i => ?_⟩
  · exact real_of_cmp (x i) (Host.reduce_andi_all _ _ _ _ _ h1 i)
  · exact real_of_cmp (s i) (Host.reduce_andi_all _ _ _ _ _ h2 i)
  · exact real_of_cmp (b i) (Host.reduce_andi_all _ _ _ _ _ h3 i)

end Cert.WolFinite

end
-- ==== Proof.RefOps.lean ====
/-
  The reference program as a straight line of its seventy-seven host operations, the three outlined functions'
  operations written at their call sites, and its run: every buffer ends at the fold of the operations over the
  launch contents.
-/
import proofs.«417928_j19765439496679_3_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the reference in order. The select of the zero points (three operations) and the floor
    division of the channel index by the group size (seventeen, the last a select of its own) are the outlined
    functions' bodies over their calls' buffers. -/
abbrev ops : List (HloOp τ sig (Elt F)) :=
  [
    nullary main_v0 (iotaInDim S8 32 0),
    nullary main_c (constantI S_ 32 4#32),
    unary main_c main_v1 (broadcastInDim S8 ![] bcast_S_S8 : (⟨S_, .i32⟩ : BufTy).Contents (Elt F) → (⟨S8, .i32⟩ : BufTy).Contents (Elt F)),
    binary main_v0 main_v1 main_v2 (muli : (⟨S8, .i32⟩ : BufTy).Contents (Elt F) → (⟨S8, .i32⟩ : BufTy).Contents (Elt F) → (⟨S8, .i32⟩ : BufTy).Contents (Elt F)),
    unary main_arg1 main_v3 (broadcastInDim S1024x1x8192 ![0, 2] bcast_S1024x8192_S1024x1x8192_0_2 : (⟨S1024x8192, .i32⟩ : BufTy).Contents (Elt F) → (⟨S1024x1x8192, .i32⟩ : BufTy).Contents (Elt F)),
    unary main_v2 main_v4 (broadcastInDim S1x8x1 ![1] bcast_S8_S1x8x1_1 : (⟨S8, .i32⟩ : BufTy).Contents (Elt F) → (⟨S1x8x1, .i32⟩ : BufTy).Contents (Elt F)),
    unary main_v3 main_v5 (broadcastInDim S1024x8x8192 ![0, 1, 2] bcast_S1024x1x8192_S1024x8x8192_0_1_2 : (⟨S1024x1x8192, .i32⟩ : BufTy).Contents (Elt F) → (⟨S1024x8x8192, .i32⟩ : BufTy).Contents (Elt F)),
    unary main_v4 main_v6 (broadcastInDim S1024x8x8192 ![0, 1, 2] bcast_S1x8x1_S1024x8x8192_0_1_2 : (⟨S1x8x1, .i32⟩ : BufTy).Contents (Elt F) → (⟨S1024x8x8192, .i32⟩ : BufTy).Contents (Elt F)),
    binary main_v5 main_v6 main_v7 (Host.shrsi : (⟨S1024x8x8192, .i32⟩ : BufTy).Contents (Elt F) → (⟨S1024x8x8192, .i32⟩ : BufTy).Contents (Elt F) → (⟨S1024x8x8192, .i32⟩ : BufTy).Contents (Elt F)),
    nullary main_c_0 (constantI S_ 32 15#32),
    unary main_c_0 main_v8 (broadcastInDim S1024x8x8192 ![] bcast_S_S1024x8x8192 : (⟨S_, .i32⟩ : BufTy).Contents (Elt F) → (⟨S1024x8x8192, .i32⟩ : BufTy).Contents (Elt F)),
    binary main_v7 main_v8 main_v9 (andi : (⟨S1024x8x8192, .i32⟩ : BufTy).Contents (Elt F) → (⟨S1024x8x8192, .i32⟩ : BufTy).Contents (Elt F) → (⟨S1024x8x8192, .i32⟩ : BufTy).Contents (Elt F)),
    reshape main_v9 main_v10 rfl shapeCasts_S1024x8x8192_S8192x8192,
    unary main_v10 main_v11 (sitofp .f32 : (⟨S8192x8192, .i32⟩ : BufTy).Contents (Elt F) → (⟨S8192x8192, .f32⟩ : BufTy).Contents (Elt F)),
    unary main_arg2 main_v12 (broadcastInDim S64x1024x1 ![0, 1] bcast_S64x1024_S64x1024x1_0_1 : (⟨S64x1024, .i32⟩ : BufTy).Contents (Elt F) → (⟨S64x1024x1, .i32⟩ : BufTy).Contents (Elt F)),
    unary main_v2 main_v13 (broadcastInDim S1x1x8 ![2] bcast_S8_S1x1x8_2 : (⟨S8, .i32⟩ : BufTy).Contents (Elt F) → (⟨S1x1x8, .i32⟩ : BufTy).Contents (Elt F)),
    unary main_v12 main_v14 (broadcastInDim S64x1024x8 ![0, 1, 2] bcast_S64x1024x1_S64x1024x8_0_1_2 : (⟨S64x1024x1, .i32⟩ : BufTy).Contents (Elt F) → (⟨S64x1024x8, .i32⟩ : BufTy).Contents (Elt F)),
    unary main_v13 main_v15 (broadcastInDim S64x1024x8 ![0, 1, 2] bcast_S1x1x8_S64x1024x8_0_1_2 : (⟨S1x1x8, .i32⟩ : BufTy).Contents (Elt F) → (⟨S64x1024x8, .i32⟩ : BufTy).Contents (Elt F)),
    binary main_v14 main_v15 main_v16 (Host.shrsi : (⟨S64x1024x8, .i32⟩ : BufTy).Contents (Elt F) → (⟨S64x1024x8, .i32⟩ : BufTy).Contents (Elt F) → (⟨S64x1024x8, .i32⟩ : BufTy).Contents (Elt F)),
    nullary main_c_1 (constantI S_ 32 15#32),
    unary main_c_1 main_v17 (broadcastInDim S64x1024x8 ![] bcast_S_S64x1024x8 : (⟨S_, .i32⟩ : BufTy).Contents (Elt F) → (⟨S64x1024x8, .i32⟩ : BufTy).Contents (Elt F)),
    binary main_v16 main_v17 main_v18 (andi : (⟨S64x1024x8, .i32⟩ : BufTy).Contents (Elt F) → (⟨S64x1024x8, .i32⟩ : BufTy).Contents (Elt F) → (⟨S64x1024x8, .i32⟩ : BufTy).Contents (Elt F)),
    reshape main_v18 main_v19 rfl shapeCasts_S64x1024x8_S64x8192,
    nullary main_c_2 (constantI S_ 32 1#32),
    unary main_c_2 main_v20 (broadcastInDim S64x8192 ![] bcast_S_S64x8192 : (⟨S_, .i32⟩ : BufTy).Contents (Elt F) → (⟨S64x8192, .i32⟩ : BufTy).Contents (Elt F)),
    binary main_v19 main_v20 main_v21 (addi : (⟨S64x8192, .i32⟩ : BufTy).Contents (Elt F) → (⟨S64x8192, .i32⟩ : BufTy).Contents (Elt F) → (⟨S64x8192, .i32⟩ : BufTy).Contents (Elt F)),
    nullary main_c_3 (constantI S_ 32 15#32),
    unary main_c_3 main_v22 (broadcastInDim S64x8192 ![] bcast_S_S64x8192 : (⟨S_, .i32⟩ : BufTy).Contents (Elt F) → (⟨S64x8192, .i32⟩ : BufTy).Contents (Elt F)),
    binary main_v21 main_v22 main_v23 (cmpi .sgt : (⟨S64x8192, .i32⟩ : BufTy).Contents (Elt F) → (⟨S64x8192, .i32⟩ : BufTy).Contents (Elt F) → (⟨S64x8192, .i1⟩ : BufTy).Contents (Elt F)),
    nullary main_c_4 (constantI S_ 32 0#32),
    TRef.unary (.of main_c_4) main_call0.v0 id,
    TRef.unary main_call0.v0 main_call0.v1 (broadcastInDim S64x8192 ![] bcast_S_S64x8192),
    TRef.ternary (.of main_v23) main_call0.v1 (.of main_v21) main_call0.v2 select,
    unary main_v24 main_v25 (sitofp .f32 : (⟨S64x8192, .i32⟩ : BufTy).Contents (Elt F) → (⟨S64x8192, .f32⟩ : BufTy).Contents (Elt F)),
    nullary main_v26 (iotaInDim S8192 32 0),
    nullary main_c_5 (constantI S_ 32 128#32),
    TRef.unary (.of main_c_5) main_call1.v0 id,
    TRef.unary main_call1.v0 main_call1.v1 (broadcastInDim S8192 ![] bcast_S_S8192),
    TRef.binary (.of main_v26) main_call1.v1 main_call1.v2 Host.divsi,
    TRef.unary (.of main_v26) main_call1.v3 signi,
    TRef.unary main_call1.v0 main_call1.v4 signi,
    TRef.unary main_call1.v4 main_call1.v5 (broadcastInDim S8192 ![] bcast_S_S8192),
    TRef.binary main_call1.v3 main_call1.v5 main_call1.v6 (cmpi .ne),
    TRef.unary main_call1.v0 main_call1.v7 (broadcastInDim S8192 ![] bcast_S_S8192),
    TRef.binary (.of main_v26) main_call1.v7 main_call1.v8 Host.remsi,
    TRef.nullary main_call1.c (constantI S_ 32 0#32),
    TRef.unary main_call1.c main_call1.v9 (broadcastInDim S8192 ![] bcast_S_S8192),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S8192 ![] bcast_S_S8192),
    TRef.binary main_call1.v2 main_call1.v12 main_call1.v13 subi,
    TRef.ternary main_call1.v11 main_call1.v13 main_call1.v2 main_call1.call0.v0 select,
    nullary main_c_6 (constantI S_ 32 0#32),
    unary main_c_6 main_v28 (broadcastInDim S8192 ![] bcast_S_S8192 : (⟨S_, .i32⟩ : BufTy).Contents (Elt F) → (⟨S8192, .i32⟩ : BufTy).Contents (Elt F)),
    binary main_v27 main_v28 main_v29 (cmpi .slt : (⟨S8192, .i32⟩ : BufTy).Contents (Elt F) → (⟨S8192, .i32⟩ : BufTy).Contents (Elt F) → (⟨S8192, .i1⟩ : BufTy).Contents (Elt F)),
    nullary main_c_7 (constantI S_ 32 64#32),
    unary main_c_7 main_v30 (broadcastInDim S8192 ![] bcast_S_S8192 : (⟨S_, .i32⟩ : BufTy).Contents (Elt F) → (⟨S8192, .i32⟩ : BufTy).Contents (Elt F)),
    binary main_v27 main_v30 main_v31 (addi : (⟨S8192, .i32⟩ : BufTy).Contents (Elt F) → (⟨S8192, .i32⟩ : BufTy).Contents (Elt F) → (⟨S8192, .i32⟩ : BufTy).Contents (Elt F)),
    ternary main_v29 main_v31 main_v27 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v32 main_v33 (broadcastInDim S8192x1 ![0] bcast_S8192_S8192x1_0 : (⟨S8192, .i32⟩ : BufTy).Contents (Elt F) → (⟨S8192x1, .i32⟩ : BufTy).Contents (Elt F)),
    binary main_v25 main_v33 main_v34 ((fun x i => Host.gather gather_S64x8192_S8192x1_S8192x8192_1_0_n_n_0_1_18192 x i) : (⟨S64x8192, .f32⟩ : BufTy).Contents (Elt F) → (⟨S8192x1, .i32⟩ : BufTy).Contents (Elt F) → (⟨S8192x8192, .f32⟩ : BufTy).Contents (Elt F)),
    binary main_v11 main_v34 main_v35 (subf : (⟨S8192x8192, .f32⟩ : BufTy).Contents (Elt F) → (⟨S8192x8192, .f32⟩ : BufTy).Contents (Elt F) → (⟨S8192x8192, .f32⟩ : BufTy).Contents (Elt F)),
    nullary main_c_8 (constantI S_ 32 0#32),
    unary main_c_8 main_v36 (broadcastInDim S8192 ![] bcast_S_S8192 : (⟨S_, .i32⟩ : BufTy).Contents (Elt F) → (⟨S8192, .i32⟩ : BufTy).Contents (Elt F)),
    binary main_v27 main_v36 main_v37 (cmpi .slt : (⟨S8192, .i32⟩ : BufTy).Contents (Elt F) → (⟨S8192, .i32⟩ : BufTy).Contents (Elt F) → (⟨S8192, .i1⟩ : BufTy).Contents (Elt F)),
    nullary main_c_9 (constantI S_ 32 64#32),
    unary main_c_9 main_v38 (broadcastInDim S8192 ![] bcast_S_S8192 : (⟨S_, .i32⟩ : BufTy).Contents (Elt F) → (⟨S8192, .i32⟩ : BufTy).Contents (Elt F)),
    binary main_v27 main_v38 main_v39 (addi : (⟨S8192, .i32⟩ : BufTy).Contents (Elt F) → (⟨S8192, .i32⟩ : BufTy).Contents (Elt F) → (⟨S8192, .i32⟩ : BufTy).Contents (Elt F)),
    ternary main_v37 main_v39 main_v27 main_v40 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v40 main_v41 (broadcastInDim S8192x1 ![0] bcast_S8192_S8192x1_0 : (⟨S8192, .i32⟩ : BufTy).Contents (Elt F) → (⟨S8192x1, .i32⟩ : BufTy).Contents (Elt F)),
    binary main_arg3 main_v41 main_v42 ((fun x i => Host.gather gather_S64x8192_S8192x1_S8192x8192_1_0_n_n_0_1_18192 x i) : (⟨S64x8192, .f32⟩ : BufTy).Contents (Elt F) → (⟨S8192x1, .i32⟩ : BufTy).Contents (Elt F) → (⟨S8192x8192, .f32⟩ : BufTy).Contents (Elt F)),
    binary main_v35 main_v42 main_v43 (mulf : (⟨S8192x8192, .f32⟩ : BufTy).Contents (Elt F) → (⟨S8192x8192, .f32⟩ : BufTy).Contents (Elt F) → (⟨S8192x8192, .f32⟩ : BufTy).Contents (Elt F)),
    binary main_arg0 main_v43 main_v44 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    unary main_arg4 main_v45 (broadcastInDim S1x8192 ![1] bcast_S8192_S1x8192_1 : (⟨S8192, .f32⟩ : BufTy).Contents (Elt F) → (⟨S1x8192, .f32⟩ : BufTy).Contents (Elt F)),
    unary main_v45 main_v46 (broadcastInDim S64x8192 ![0, 1] bcast_S1x8192_S64x8192_0_1 : (⟨S1x8192, .f32⟩ : BufTy).Contents (Elt F) → (⟨S64x8192, .f32⟩ : BufTy).Contents (Elt F)),
    binary main_v44 main_v46 main_v47 (addf : (⟨S64x8192, .f32⟩ : BufTy).Contents (Elt F) → (⟨S64x8192, .f32⟩ : BufTy).Contents (Elt F) → (⟨S64x8192, .f32⟩ : BufTy).Contents (Elt F)) ]

set_option maxRecDepth 4096 in
set_option maxHeartbeats 4000000 in
/-- The program is that straight line: the functions unfolded at their calls, sequencing reassociated. -/
theorem main_eq (c : Dev nD) : main (F := F) c = seq ops := by
  simp only [main, fn_where.body, fn_where_0.body, fn_floor_divide.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., unary_bufs_sub .., binary_bufs_sub .., unary_bufs_sub .., unary_bufs_sub ..,
    unary_bufs_sub .., unary_bufs_sub .., binary_bufs_sub .., nullary_bufs_sub .., unary_bufs_sub .., binary_bufs_sub ..,
    reshape_bufs_sub .., unary_bufs_sub .., unary_bufs_sub .., unary_bufs_sub .., unary_bufs_sub .., unary_bufs_sub ..,
    binary_bufs_sub .., nullary_bufs_sub .., unary_bufs_sub .., binary_bufs_sub .., reshape_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., binary_bufs_sub ..⟩

/-- From any memory with zero counters every weakly fair execution of the reference terminates, and every buffer
    ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefRun.lean ====
/-
  The reference program run to its end: its result array is `WolSpec.G` of its arguments.

  The result buffer holds one term of the five argument arrays (`outArr`): the packed weight and the packed zero points
  unpacked nibble by nibble and made reals, the zero points and the scales gathered row by row at the group index of
  every input channel, the difference times the scale contracted with x over the input channels, the bias added on
  every row. Read at an index (p, n), operation by operation, that term is `WolSpec.refVal`: a reshape
  [1024, 8, 8192] → [8192, 8192] reads entry (i, n) at word i / 8, nibble i % 8; a reshape [64, 1024, 8] → [64, 8192]
  reads entry (g, n) at word n / 8, nibble n % 8; the group index of channel i, an iota floor-divided by 128 and wrapped
  if negative, is i / 128, inside the table's 64 rows, so the row gather reads row i / 128.
-/
import proofs.«417928_j19765439496679_3_alg».proof.Proof.Gen.ReferenceIdeal
import proofs.«417928_j19765439496679_3_alg».proof.Proof.Spec
import proofs.«417928_j19765439496679_3_alg».proof.Proof.RefOps
import Idealize.ShloMosaic.Lib.StableHlo.Run
import Idealize.ShloMosaic.Lib.StableHlo.Predicate
import Idealize.ShloMosaic.Lib.Pipeline.Value
import Idealize.ShloMosaic.Lib.IdealHost
import Idealize.ShloMosaic.Lib.StackMember
import Idealize.ShloMosaic.Lib.Decide

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.WolSpec

/-! ## The group index of a channel, and the row gather -/

/-- The reference's group index of the channel whose index is the word `a`: the quotient by 128 rounded to zero, one
    less where the signs of `a` and of 128 differ and the remainder is not zero (the floor), and 64 more if that is
    negative. -/
def grpIdxWord (a : BitVec 32) : BitVec 32 :=
  let q := IntOp.divsi .host a 128#32
  let sa : BitVec 32 := if a = 0 then 0 else if a.msb then -1 else 1
  let sd : BitVec 32 := if (128#32 : BitVec 32) = 0 then 0 else if (128#32 : BitVec 32).msb then -1 else 1
  let f := Scalar.select (IntOp.andi (IntOp.cmpi .ne sa sd) (IntOp.cmpi .ne (IntOp.remsi .host a 128#32) 0#32))
    (IntOp.subi q 1#32) q
  Scalar.select (IntOp.cmpi .slt f 0#32) (IntOp.addi f 64#32) f

/-- On a channel index below 8192 it is i / 128: no division corner is met, the signs agree unless i = 0, where the
    remainder is zero, and the quotient is not negative. By evaluation at each of the 8192 channels. -/
theorem grpIdxWord_ofNat : ∀ i : Fin 8192, grpIdxWord (BitVec.ofNat 32 i.val) = BitVec.ofNat 32 (i.val / 128) := by
  decide +kernel

/-- Read signed and clamped into the table's rows 0..63 it is still i / 128. -/
theorem grpIdx_clamp (i : Fin 8192) : min (grpIdxWord (BitVec.ofNat 32 i.val)).toInt.toNat 63 = i.val / 128 := by
  have hi := i.isLt
  rw [grpIdxWord_ofNat, Predicate.toInt_ofNat_small (i.val / 128) (by omega), Int.toNat_natCast]
  exact Nat.min_eq_left (by omega)

/-- On the row axis the gather's operand coordinate is the start index at (i, 0), read signed and clamped: the axis is
    in the start index map, is collapsed (no offset) and is no batching axis. -/
theorem gather_row {w : Nat} (idx : IVec S8192x1 w) (i n : Fin 8192) :
    gather_S64x8192_S8192x1_S8192x8192_1_0_n_n_0_1_18192.start (ix2 i n) idx 0
        + gather_S64x8192_S8192x1_S8192x8192_1_0_n_n_0_1_18192.batchCoord (ix2 i n) 0
        + gather_S64x8192_S8192x1_S8192x8192_1_0_n_n_0_1_18192.offCoord (ix2 i n) 0
      = min (idx (ix2 i (0 : Fin 1))).toInt.toNat 63 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S64x8192_S8192x1_S8192x8192_1_0_n_n_0_1_18192.startIndexMap from
    List.mem_singleton.mpr rfl)]
  have hsi : gather_S64x8192_S8192x1_S8192x8192_1_0_n_n_0_1_18192.siIdx (ix2 i n)
      ⟨List.idxOf (0 : Fin 2) gather_S64x8192_S8192x1_S8192x8192_1_0_n_n_0_1_18192.startIndexMap,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

/-- On the column axis the operand coordinate is the result's column: the axis is not in the start index map (start 0),
    is no batching axis, and is the one offset axis. -/
theorem gather_col {w : Nat} (idx : IVec S8192x1 w) (i n : Fin 8192) :
    gather_S64x8192_S8192x1_S8192x8192_1_0_n_n_0_1_18192.start (ix2 i n) idx 1
        + gather_S64x8192_S8192x1_S8192x8192_1_0_n_n_0_1_18192.batchCoord (ix2 i n) 1
        + gather_S64x8192_S8192x1_S8192x8192_1_0_n_n_0_1_18192.offCoord (ix2 i n) 1
      = n.val := by
  rw [GatherDims.batchCoord_eq_zero _ _ _ List.not_mem_nil]
  have hs : gather_S64x8192_S8192x1_S8192x8192_1_0_n_n_0_1_18192.start (ix2 i n) idx 1 = 0 := by
    unfold GatherDims.start
    rw [dif_neg (show ¬ (1 : Fin 2) ∈ gather_S64x8192_S8192x1_S8192x8192_1_0_n_n_0_1_18192.startIndexMap from by decide)]
  rw [hs]
  simp only [Nat.add_zero, Nat.zero_add]
  unfold GatherDims.offCoord
  rw [dif_pos (show (1 : Fin 2) ∈ gather_S64x8192_S8192x1_S8192x8192_1_0_n_n_0_1_18192.sKept from by decide)]
  rfl

/-- The row gather read at (i, n): the table's row named by the start index at (i, 0), read signed and clamped into
    0..63, at column n. -/
theorem gather_rows_apply {α : Type} (x : S64x8192.Idx → α) (idx : IVec S8192x1 32) (i n : Fin 8192) :
    Host.gather gather_S64x8192_S8192x1_S8192x8192_1_0_n_n_0_1_18192 x idx (ix2 i n)
      = x (ix2 (⟨min (idx (ix2 i (0 : Fin 1))).toInt.toNat 63, by omega⟩ : Fin 64) n) := by
  unfold Host.gather
  refine congrArg x (funext fun a => Fin.ext ?_)
  match a with
  | ⟨0, _⟩ => exact gather_row idx i n
  | ⟨1, _⟩ => exact gather_col idx i n

/-! ## The pieces of the result term, each read at an index -/

/-- The shift amounts: nibble l of a word is found 4·l bits up. -/
def shv : IVec S8 32 :=
  muli (iotaInDim S8 32 0) (broadcastInDim S8 ![] bcast_S_S8 (constantI S_ 32 4#32))

/-- At lane l the amount is the specification's. -/
theorem shv_apply (l : Fin 8) : shv (ix1 l) = shamt l := rfl

/-- The packed weight unpacked: word (r, n) gives the eight entries (8r + l, n), l = 0..7. -/
def wInt (qw : IVec S1024x8192 32) : IVec S8192x8192 32 :=
  shapeCast S8192x8192
    (andi (Host.shrsi
        (broadcastInDim S1024x8x8192 ![0, 1, 2] bcast_S1024x1x8192_S1024x8x8192_0_1_2
          (broadcastInDim S1024x1x8192 ![0, 2] bcast_S1024x8192_S1024x1x8192_0_2 qw))
        (broadcastInDim S1024x8x8192 ![0, 1, 2] bcast_S1x8x1_S1024x8x8192_0_1_2
          (broadcastInDim S1x8x1 ![1] bcast_S8_S1x8x1_1 shv)))
      (broadcastInDim S1024x8x8192 ![] bcast_S_S1024x8x8192 (constantI S_ 32 15#32)))
    shapeCasts_S1024x8x8192_S8192x8192

/-- The word (r, n) spread over the eight lanes reads the word. -/
theorem spreadW_apply (qw : IVec S1024x8192 32) (r : Fin 1024) (l : Fin 8) (n : Fin 8192) :
    broadcastInDim S1024x8x8192 ![0, 1, 2] bcast_S1024x1x8192_S1024x8x8192_0_1_2
      (broadcastInDim S1024x1x8192 ![0, 2] bcast_S1024x8192_S1024x1x8192_0_2 qw) (ix3 r l n) = qw (ix2 r n) := by
  rw [broadcastInDim_apply _ _ _ (ix3 r l n) (ix3 r (0 : Fin 1) n)
        (fun a => match a with | ⟨0, _⟩ => rfl | ⟨1, _⟩ => rfl | ⟨2, _⟩ => rfl),
    broadcastInDim_apply _ _ _ (ix3 r (0 : Fin 1) n) (ix2 r n)
        (fun a => match a with | ⟨0, _⟩ => rfl | ⟨1, _⟩ => rfl)]

/-- The shift amounts spread over the words read the lane's amount. -/
theorem spreadShW_apply (v : IVec S8 32) (r : Fin 1024) (l : Fin 8) (n : Fin 8192) :
    broadcastInDim S1024x8x8192 ![0, 1, 2] bcast_S1x8x1_S1024x8x8192_0_1_2
      (broadcastInDim S1x8x1 ![1] bcast_S8_S1x8x1_1 v) (ix3 r l n) = v (ix1 l) := by
  rw [broadcastInDim_apply _ _ _ (ix3 r l n) (ix3 (0 : Fin 1) l (0 : Fin 1))
        (fun a => match a with | ⟨0, _⟩ => rfl | ⟨1, _⟩ => rfl | ⟨2, _⟩ => rfl),
    broadcastInDim_apply _ _ _ (ix3 (0 : Fin 1) l (0 : Fin 1)) (ix1 l)
        (fun a => match a with | ⟨0, _⟩ => rfl)]

/-- Entry (i, n) of the unpacked weight is nibble i % 8 of word (i / 8, n). -/
theorem wInt_apply (qw : IVec S1024x8192 32) (i n : Fin 8192) :
    wInt qw (ix2 i n) = nib (qw (ix2 (rowOf i) n)) (lane i) := by
  unfold wInt
  rw [shapeCast_apply _ _ (ix2 i n) (ix3 (rowOf i) (lane i) n) (by
    rw [Shape.rowMajor_val_three, Shape.rowMajor_val_two]
    show (i.val / 8 * 8 + i.val % 8) * 8192 + n.val = i.val * 8192 + n.val
    omega)]
  show IntOp.andi (IntOp.shrsi .host (broadcastInDim S1024x8x8192 ![0, 1, 2] bcast_S1024x1x8192_S1024x8x8192_0_1_2
      (broadcastInDim S1024x1x8192 ![0, 2] bcast_S1024x8192_S1024x1x8192_0_2 qw) (ix3 (rowOf i) (lane i) n))
    (broadcastInDim S1024x8x8192 ![0, 1, 2] bcast_S1x8x1_S1024x8x8192_0_1_2
      (broadcastInDim S1x8x1 ![1] bcast_S8_S1x8x1_1 shv) (ix3 (rowOf i) (lane i) n))) 15#32 = _
  rw [spreadW_apply, spreadShW_apply, shv_apply]
  rfl

/-- The packed zero points unpacked: word (g, c) gives the eight entries (g, 8c + l), l = 0..7. -/
def zNib (qz : IVec S64x1024 32) : IVec S64x8192 32 :=
  shapeCast S64x8192
    (andi (Host.shrsi
        (broadcastInDim S64x1024x8 ![0, 1, 2] bcast_S64x1024x1_S64x1024x8_0_1_2
          (broadcastInDim S64x1024x1 ![0, 1] bcast_S64x1024_S64x1024x1_0_1 qz))
        (broadcastInDim S64x1024x8 ![0, 1, 2] bcast_S1x1x8_S64x1024x8_0_1_2
          (broadcastInDim S1x1x8 ![2] bcast_S8_S1x1x8_2 shv)))
      (broadcastInDim S64x1024x8 ![] bcast_S_S64x1024x8 (constantI S_ 32 15#32)))
    shapeCasts_S64x1024x8_S64x8192

/-- The word (g, c) spread over the eight lanes reads the word. -/
theorem spreadZ_apply (qz : IVec S64x1024 32) (g : Fin 64) (c : Fin 1024) (l : Fin 8) :
    broadcastInDim S64x1024x8 ![0, 1, 2] bcast_S64x1024x1_S64x1024x8_0_1_2
      (broadcastInDim S64x1024x1 ![0, 1] bcast_S64x1024_S64x1024x1_0_1 qz) (ix3 g c l) = qz (ix2 g c) := by
  rw [broadcastInDim_apply _ _ _ (ix3 g c l) (ix3 g c (0 : Fin 1))
        (fun a => match a with | ⟨0, _⟩ => rfl | ⟨1, _⟩ => rfl | ⟨2, _⟩ => rfl),
    broadcastInDim_apply _ _ _ (ix3 g c (0 : Fin 1)) (ix2 g c)
        (fun a => match a with | ⟨0, _⟩ => rfl | ⟨1, _⟩ => rfl)]

/-- The shift amounts spread over the zero-point words read the lane's amount. -/
theorem spreadShZ_apply (v : IVec S8 32) (g : Fin 64) (c : Fin 1024) (l : Fin 8) :
    broadcastInDim S64x1024x8 ![0, 1, 2] bcast_S1x1x8_S64x1024x8_0_1_2
      (broadcastInDim S1x1x8 ![2] bcast_S8_S1x1x8_2 v) (ix3 g c l) = v (ix1 l) := by
  rw [broadcastInDim_apply _ _ _ (ix3 g c l) (ix3 (0 : Fin 1) (0 : Fin 1) l)
        (fun a => match a with | ⟨0, _⟩ => rfl | ⟨1, _⟩ => rfl | ⟨2, _⟩ => rfl),
    broadcastInDim_apply _ _ _ (ix3 (0 : Fin 1) (0 : Fin 1) l) (ix1 l)
        (fun a => match a with | ⟨0, _⟩ => rfl)]

/-- Entry (g, n) of the unpacked zero points is nibble n % 8 of word (g, n / 8). -/
theorem zNib_apply (qz : IVec S64x1024 32) (g : Fin 64) (n : Fin 8192) :
    zNib qz (ix2 g n) = nib (qz (ix2 g (rowOf n))) (lane n) := by
  unfold zNib
  rw [shapeCast_apply _ _ (ix2 g n) (ix3 g (rowOf n) (lane n)) (by
    rw [Shape.rowMajor_val_three, Shape.rowMajor_val_two]
    show (g.val * 1024 + n.val / 8) * 8 + n.val % 8 = g.val * 8192 + n.val
    omega)]
  show IntOp.andi (IntOp.shrsi .host (broadcastInDim S64x1024x8 ![0, 1, 2] bcast_S64x1024x1_S64x1024x8_0_1_2
      (broadcastInDim S64x1024x1 ![0, 1] bcast_S64x1024_S64x1024x1_0_1 qz) (ix3 g (rowOf n) (lane n)))
    (broadcastInDim S64x1024x8 ![0, 1, 2] bcast_S1x1x8_S64x1024x8_0_1_2
      (broadcastInDim S1x1x8 ![2] bcast_S8_S1x1x8_2 shv) (ix3 g (rowOf n) (lane n)))) 15#32 = _
  rw [spreadZ_apply, spreadShZ_apply, shv_apply]
  rfl

/-- The zero points as integers: the nibble plus one, zero where that passes fifteen. -/
def zInt (qz : IVec S64x1024 32) : IVec S64x8192 32 :=
  select
    (cmpi .sgt (addi (zNib qz) (broadcastInDim S64x8192 ![] bcast_S_S64x8192 (constantI S_ 32 1#32)))
      (broadcastInDim S64x8192 ![] bcast_S_S64x8192 (constantI S_ 32 15#32)))
    (broadcastInDim S64x8192 ![] bcast_S_S64x8192 (constantI S_ 32 0#32))
    (addi (zNib qz) (broadcastInDim S64x8192 ![] bcast_S_S64x8192 (constantI S_ 32 1#32)))

/-- Entry (g, n) is the specification's zero point of that nibble. -/
theorem zInt_apply (qz : IVec S64x1024 32) (g : Fin 64) (n : Fin 8192) :
    zInt qz (ix2 g n) = zpw (qz (ix2 g (rowOf n))) (lane n) := by
  show Scalar.select (IntOp.cmpi .sgt (IntOp.addi (zNib qz (ix2 g n)) 1#32) 15#32) 0#32
      (IntOp.addi (zNib qz (ix2 g n)) 1#32) = _
  rw [zNib_apply]
  rfl

/-- The unpacked weight as reals. -/
def wArr (qw : IVec S1024x8192 32) : FVec Ideal S8192x8192 .f32 := sitofp .f32 (wInt qw)
/-- The zero points as reals. -/
def zArr (qz : IVec S64x1024 32) : FVec Ideal S64x8192 .f32 := sitofp .f32 (zInt qz)

/-- Entry (i, n) is the specification's raw weight. -/
theorem wArr_apply (qw : IVec S1024x8192 32) (i n : Fin 8192) : wArr qw (ix2 i n) = wv qw i n := by
  unfold wArr wv
  rw [sitofp_apply, wInt_apply]
  rfl

/-- Entry (g, n) is the specification's zero point of group g at column n. -/
theorem zArr_apply (qz : IVec S64x1024 32) (g : Fin 64) (n : Fin 8192) : zArr qz (ix2 g n) = zv qz g n := by
  unfold zArr zv
  rw [sitofp_apply, zInt_apply]
  rfl

/-- The bias laid along every row. -/
theorem biasRows_apply (b : FVec Ideal S8192 .f32) (p : Fin 64) (n : Fin 8192) :
    broadcastInDim S64x8192 ![0, 1] bcast_S1x8192_S64x8192_0_1
      (broadcastInDim S1x8192 ![1] bcast_S8192_S1x8192_1 b) (ix2 p n) = b (ix1 n) := by
  rw [broadcastInDim_apply _ _ _ (ix2 p n) (ix2 (0 : Fin 1) n)
        (fun a => match a with | ⟨0, _⟩ => rfl | ⟨1, _⟩ => rfl),
    broadcastInDim_apply _ _ _ (ix2 (0 : Fin 1) n) (ix1 n)
        (fun a => match a with | ⟨0, _⟩ => rfl)]

/-- The reference's contraction record is the plain matrix product's. -/
theorem dot_eq_plain : dot_S64x8192_S8192x8192_S64x8192_1_0_0_1_n_n = DotDims.plain 64 8192 8192 := rfl

/-- The host product read at an index: the sum over the contracted channel. -/
theorem dot_apply (x : FVec Ideal S64x8192 .f32) (y : FVec Ideal S8192x8192 .f32) (p : Fin 64) (n : Fin 8192) :
    Host.dotGeneral (F := Ideal) dot_S64x8192_S8192x8192_S64x8192_1_0_0_1_n_n none x y (ix2 p n)
      = ∑ i : Fin 8192, x (ix2 p i) * y (ix2 i n) := by
  rw [dot_eq_plain]
  exact StackMember.dotGeneral_plain_apply none x y p n

/-- The floor division of the channel index by the group size as the reference computes it: the quotient rounded to
    zero, one less where the signs differ and the remainder is not zero. -/
def floorDiv : IVec S8192 32 :=
  select
    (andi
      (cmpi .ne (signi (iotaInDim S8192 32 0))
        (broadcastInDim S8192 ![] bcast_S_S8192 (signi (constantI S_ 32 128#32))))
      (cmpi .ne (Host.remsi (iotaInDim S8192 32 0) (broadcastInDim S8192 ![] bcast_S_S8192 (constantI S_ 32 128#32)))
        (broadcastInDim S8192 ![] bcast_S_S8192 (constantI S_ 32 0#32))))
    (subi (Host.divsi (iotaInDim S8192 32 0) (broadcastInDim S8192 ![] bcast_S_S8192 (constantI S_ 32 128#32)))
      (broadcastInDim S8192 ![] bcast_S_S8192 (constantI S_ 32 1#32)))
    (Host.divsi (iotaInDim S8192 32 0) (broadcastInDim S8192 ![] bcast_S_S8192 (constantI S_ 32 128#32)))

/-- The group index of every channel, a negative one wrapped by the number of groups, as a column of start indices. -/
def grpCol : IVec S8192x1 32 :=
  broadcastInDim S8192x1 ![0] bcast_S8192_S8192x1_0
    (select (cmpi .slt floorDiv (broadcastInDim S8192 ![] bcast_S_S8192 (constantI S_ 32 0#32)))
      (addi floorDiv (broadcastInDim S8192 ![] bcast_S_S8192 (constantI S_ 32 64#32)))
      floorDiv)

/-- The reference's result as one term of its five arguments. -/
def outArr (x : FVec Ideal S64x8192 .f32) (qw : IVec S1024x8192 32) (qz : IVec S64x1024 32)
    (s : FVec Ideal S64x8192 .f32) (b : FVec Ideal S8192 .f32) : FVec Ideal S64x8192 .f32 :=
  addf
    (Host.dotGeneral (F := Ideal) dot_S64x8192_S8192x8192_S64x8192_1_0_0_1_n_n none x
      (mulf
        (subf (wArr qw) (Host.gather gather_S64x8192_S8192x1_S8192x8192_1_0_n_n_0_1_18192 (zArr qz) grpCol))
        (Host.gather gather_S64x8192_S8192x1_S8192x8192_1_0_n_n_0_1_18192 s grpCol)))
    (broadcastInDim S64x8192 ![0, 1] bcast_S1x8192_S64x8192_0_1 (broadcastInDim S1x8192 ![1] bcast_S8192_S1x8192_1 b))

/-- The start index of channel i: the scalar chain on the word of i. -/
theorem grpCol_apply (i : Fin 8192) : grpCol (ix2 i (0 : Fin 1)) = grpIdxWord (BitVec.ofNat 32 i.val) := by
  unfold grpCol
  rw [broadcastInDim_apply _ _ _ (ix2 i (0 : Fin 1)) (ix1 i) (fun a => match a with | ⟨0, _⟩ => rfl)]
  rfl

/-- A row gather at the group indices reads the row of the channel's group. -/
theorem gatherGrp_apply {α : Type} (x : S64x8192.Idx → α) (i n : Fin 8192) :
    Host.gather gather_S64x8192_S8192x1_S8192x8192_1_0_n_n_0_1_18192 x grpCol (ix2 i n) = x (ix2 (grpOf i) n) := by
  rw [gather_rows_apply]
  exact congrArg (fun g : Fin 64 => x (ix2 g n)) (Fin.ext (by
    show min (grpCol (ix2 i (0 : Fin 1))).toInt.toNat 63 = i.val / 128
    rw [grpCol_apply]
    exact grpIdx_clamp i))

/-- The reference's term at an index is the layer's value there. -/
theorem outArr_apply (x : FVec Ideal S64x8192 .f32) (qw : IVec S1024x8192 32) (qz : IVec S64x1024 32)
    (s : FVec Ideal S64x8192 .f32) (b : FVec Ideal S8192 .f32) (p : Fin 64) (n : Fin 8192) :
    outArr x qw qz s b (ix2 p n) = refVal x qw qz s b p n := by
  unfold outArr refVal
  rw [addf_apply, dot_apply, biasRows_apply]
  refine congrArg (· + b (ix1 n)) (Finset.sum_congr rfl fun i _ => ?_)
  rw [mulf_apply, subf_apply, gatherGrp_apply, gatherGrp_apply, wArr_apply, zArr_apply]

theorem outArr_eq (x : FVec Ideal S64x8192 .f32) (qw : IVec S1024x8192 32) (qz : IVec S64x1024 32)
    (s : FVec Ideal S64x8192 .f32) (b : FVec Ideal S8192 .f32) : outArr x qw qz s b = G x qw qz s b := by
  funext o
  obtain ⟨p, n, rfl⟩ : ∃ (p : Fin 64) (n : Fin 8192), o = ix2 p n := ⟨o 0, o 1, eq_ix2 o⟩
  exact outArr_apply x qw qz s b p n

/-! ## The run -/

set_option maxRecDepth 8192 in
set_option maxHeartbeats 1600000 in
/-- The fold of the operations at the result buffer is that term of the argument buffers. -/
theorem out_eq (V : Valuation τ sig (Elt Ideal)) :
    after (ops (F := Ideal)) V (main_v47 : DevRef τ sig)
      = outArr (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
set_option maxHeartbeats 1600000 in
/-- No operation writes an argument buffer. -/
theorem args_eq (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig) := by
  refine ⟨?_, ?_, ?_, ?_, ?_⟩ <;> after_results_simp

/-- Every weakly fair execution of the reference terminates with its result at `WolSpec.G` of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47)
        = Cert.WolSpec.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v47).trans ((out_eq _).trans (outArr_eq _ _ _ _ _)),
       (h c main_arg0).trans (args_eq _).1,
       (h c main_arg1).trans (args_eq _).2.1,
       (h c main_arg2).trans (args_eq _).2.2.1,
       (h c main_arg3).trans (args_eq _).2.2.2.1,
       (h c main_arg4).trans (args_eq _).2.2.2.2⟩)
    (run_main m ρ)

end Cert.ReferenceIdeal.RefValue

end
-- ==== Proof.KGroup.lean ====
/-
  One group of the kernel's body, read at an index.

  The body handles a K tile of 1024 input channels as eight groups of 128. For one group it takes 16 packed rows
  `qs : [16, 2048]`, views them `[16, 1, 2048]`, repeats each along a new axis of eight, shifts copy `j` right by
  `4j` and masks with 15, and views the result `[128, 2048]`: row `r` of that is nibble `r % 8` of packed row
  `r / 8`. Converted to floats it is multiplied from the left with x's 128 columns of the group, `xs : [64, 128]`,
  and the product is scaled column by column with the group's row of scales, `sc : [1, 2048]`:
      grp xs qs sh sc (p, q) = (Σ_{r<128} xs (p, r) · nibble_{r%8}(qs (r/8, q))) · sc (0, q).
-/
import proofs.«417928_j19765439496679_3_alg».proof.Proof.Gen.KernelIdeal.Skeleton
import proofs.«417928_j19765439496679_3_alg».proof.Proof.Spec
import Idealize.ShloMosaic.Lib.Pipeline.Value
import Idealize.ShloMosaic.Lib.ValueLayout
import Idealize.ShloMosaic.PureOps.Ideal.Laws

noncomputable section

namespace Cert.KernelIdeal.GroupVal

open Cert.KernelIdeal Cert.KernelIdeal.Gen Idealize.ShloMosaic Idealize.ShloMosaic.ValueIdx Cert.WolSpec

variable {F : FTy → Type} [FloatOps F]

/-- The 128 rows of nibbles of one group: packed rows `qs`, shift amounts `sh`. -/
def unpack (qs : IVec S16x2048 32) (sh : IVec S1x8x1 32) : IVec S128x2048 32 :=
  shapeCast S128x2048
    (andi (shrsi (broadcastTo S16x8x2048 (shapeCast S16x1x2048 qs shapeCasts_S16x2048_S16x1x2048) broadcasts_S16x1x2048_S16x8x2048)
        (broadcastTo S16x8x2048 sh broadcasts_S1x8x1_S16x8x2048))
      (broadcast S16x8x2048 15#32))
    shapeCasts_S16x8x2048_S128x2048

/-- One group's share of the local accumulator. -/
def grp (xs : FVec F S64x128 .bf16) (qs : IVec S16x2048 32) (sh : IVec S1x8x1 32) (sc : FVec F S1x2048 .f32) :
    FVec F S64x2048 .f32 :=
  mulf (matmul dot_S64x128_S128x2048_S64x2048_1_0_0_1_n_n none xs (sitofp .bf16 (unpack qs sh)) (constant S64x2048 .f32 0x00000000#32))
    (broadcastTo S64x2048 (shapeCast S1x2048 (shapeCast S2048 sc shapeCasts_S1x2048_S2048) shapeCasts_S2048_S1x2048)
      broadcasts_S1x2048_S64x2048)

/-- Row `r` of the unpacked group is nibble `r % 8` of packed row `r / 8`. -/
theorem unpack_apply (qs : IVec S16x2048 32) (sh : IVec S1x8x1 32)
    (hsh : ∀ j : Fin 8, sh (ix3 (0 : Fin 1) j (0 : Fin 1)) = shamt j) (r : Fin 128) (q : Fin 2048) :
    unpack qs sh (ix2 r q) = nib (qs (ix2 (⟨r.val / 8, by omega⟩ : Fin 16) q)) ⟨r.val % 8, by omega⟩ := by
  unfold unpack
  rw [shapeCast_apply _ _ (ix2 r q) (ix3 (⟨r.val / 8, by omega⟩ : Fin 16) (⟨r.val % 8, by omega⟩ : Fin 8) q) (by
    rw [Shape.rowMajor_val_three, Shape.rowMajor_val_two]
    show (r.val / 8 * 8 + r.val % 8) * 2048 + q.val = r.val * 2048 + q.val
    omega)]
  show IntOp.andi (IntOp.shrsi .vector (broadcastTo S16x8x2048 (shapeCast S16x1x2048 qs shapeCasts_S16x2048_S16x1x2048) broadcasts_S16x1x2048_S16x8x2048 _)
    (broadcastTo S16x8x2048 sh broadcasts_S1x8x1_S16x8x2048 _)) 15#32 = _
  rw [broadcastTo_apply _ _ _ (ix3 (⟨r.val / 8, by omega⟩ : Fin 16) (0 : Fin 1) q) (fun a => by
      match a with
      | ⟨0, _⟩ => rfl
      | ⟨1, _⟩ => rfl
      | ⟨2, _⟩ => rfl),
    broadcastTo_apply sh _ _ (ix3 (0 : Fin 1) (⟨r.val % 8, by omega⟩ : Fin 8) (0 : Fin 1)) (fun a => by
      match a with
      | ⟨0, _⟩ => rfl
      | ⟨1, _⟩ => rfl
      | ⟨2, _⟩ => rfl),
    shapeCast_apply qs _ _ (ix2 (⟨r.val / 8, by omega⟩ : Fin 16) q) (by
      rw [Shape.rowMajor_val_three, Shape.rowMajor_val_two]
      show r.val / 8 * 2048 + q.val = (r.val / 8 * 1 + 0) * 2048 + q.val
      omega),
    hsh, shrsi_vector_eq_host]
  rfl

theorem lhs_0 (i : S64x2048.Idx) (k : dot_S64x128_S128x2048_S64x2048_1_0_0_1_n_n.contr.Idx) :
    (dot_S64x128_S128x2048_S64x2048_1_0_0_1_n_n.lhsIdx i k 0).val = (i 0).val := by
  unfold DotDims.lhsIdx
  rw [dif_neg (show ¬(0 : Fin S64x128.rank) ∈ dot_S64x128_S128x2048_S64x2048_1_0_0_1_n_n.lhsBatch by decide),
    dif_pos (show (0 : Fin S64x128.rank) ∈ dot_S64x128_S128x2048_S64x2048_1_0_0_1_n_n.lhsNonContracting by decide)]
  rfl

theorem lhs_1 (i : S64x2048.Idx) (k : dot_S64x128_S128x2048_S64x2048_1_0_0_1_n_n.contr.Idx) :
    (dot_S64x128_S128x2048_S64x2048_1_0_0_1_n_n.lhsIdx i k 1).val = (k ⟨0, by decide⟩).val :=
  dot_S64x128_S128x2048_S64x2048_1_0_0_1_n_n.lhsIdx_val_of_single rfl i k

theorem rhs_0 (i : S64x2048.Idx) (k : dot_S64x128_S128x2048_S64x2048_1_0_0_1_n_n.contr.Idx) :
    (dot_S64x128_S128x2048_S64x2048_1_0_0_1_n_n.rhsIdx i k 0).val = (k ⟨0, by decide⟩).val :=
  dot_S64x128_S128x2048_S64x2048_1_0_0_1_n_n.rhsIdx_val_of_single rfl i k

theorem rhs_1 (i : S64x2048.Idx) (k : dot_S64x128_S128x2048_S64x2048_1_0_0_1_n_n.contr.Idx) :
    (dot_S64x128_S128x2048_S64x2048_1_0_0_1_n_n.rhsIdx i k 1).val = (i 1).val := by
  unfold DotDims.rhsIdx
  rw [dif_neg (show ¬(1 : Fin S128x2048.rank) ∈ dot_S64x128_S128x2048_S64x2048_1_0_0_1_n_n.rhsBatch by decide),
    dif_pos (show (1 : Fin S128x2048.rank) ∈ dot_S64x128_S128x2048_S64x2048_1_0_0_1_n_n.rhsNonContracting by decide)]
  rfl

/-- One group at (p, q), over the extended reals: x's row against the group's 128 nibbles of column q, times the
    group's scale at q. -/
theorem grp_apply (xs : FVec Ideal S64x128 .bf16) (qs : IVec S16x2048 32) (sh : IVec S1x8x1 32)
    (sc : FVec Ideal S1x2048 .f32) (hsh : ∀ j : Fin 8, sh (ix3 (0 : Fin 1) j (0 : Fin 1)) = shamt j)
    (p : Fin 64) (q : Fin 2048) :
    grp xs qs sh sc (ix2 p q)
      = (∑ r : Fin 128, xs (ix2 p r)
            * (((nib (qs (ix2 (⟨r.val / 8, by omega⟩ : Fin 16) q)) ⟨r.val % 8, by omega⟩).toInt : ℝ) : EReal))
          * sc (ix2 (0 : Fin 1) q) := by
  unfold grp
  rw [mulf_apply, broadcastTo_1b_ab_apply, shapeCast_shapeCast]
  congr 1
  simp only [matmul]
  rw [Ideal.matmul_constant_zero_apply,
    ← Equiv.sum_comp (contrEquiv1 dot_S64x128_S128x2048_S64x2048_1_0_0_1_n_n 128 rfl rfl).symm]
  refine Finset.sum_congr rfl fun k _ => ?_
  have hk := contrEquiv1_symm_val dot_S64x128_S128x2048_S64x2048_1_0_0_1_n_n 128 rfl rfl k
  have el : dot_S64x128_S128x2048_S64x2048_1_0_0_1_n_n.lhsIdx (ix2 p q) ((contrEquiv1 dot_S64x128_S128x2048_S64x2048_1_0_0_1_n_n 128 rfl rfl).symm k) = ix2 p k :=
    funext fun a => Fin.ext (by
      match a with
      | ⟨0, _⟩ => exact lhs_0 _ _
      | ⟨1, _⟩ => exact (lhs_1 _ _).trans hk)
  have er : dot_S64x128_S128x2048_S64x2048_1_0_0_1_n_n.rhsIdx (ix2 p q) ((contrEquiv1 dot_S64x128_S128x2048_S64x2048_1_0_0_1_n_n 128 rfl rfl).symm k) = ix2 k q :=
    funext fun a => Fin.ext (by
      match a with
      | ⟨0, _⟩ => exact (rhs_0 _ _).trans hk
      | ⟨1, _⟩ => exact rhs_1 _ _)
  rw [el, er, sitofp_apply, unpack_apply qs sh hsh]
  rfl

end Cert.KernelIdeal.GroupVal

end
-- ==== Proof.KBody.lean ====
/-
  The kernel's body at one grid point, as values.

  At a point the body reads a tile of x (`xb : [64, 1024]`, the point's 1024 input channels), a block of packed
  weights (`qb : [128, 2048]`: 128 packed rows = 1024 channels, 2048 output columns) and the block's eight rows of
  scales (`sb : [8, 2048]`). Its local accumulator is zero plus the eight groups' shares, in order; the carried
  accumulator takes that on top of what it held (zero at the first point of a column block); at the last point of a
  column block the output is the accumulator plus the block of the host-computed correction.
-/
import proofs.«417928_j19765439496679_3_alg».proof.Proof.KGroup

noncomputable section

namespace Cert.KernelIdeal.BodyVal

open Cert.KernelIdeal Cert.KernelIdeal.Gen Idealize.ShloMosaic Idealize.ShloMosaic.ValueIdx Cert.WolSpec
open Cert.KernelIdeal.GroupVal

variable {F : FTy → Type} [FloatOps F]

/-- The body's local accumulator of one point, from the three blocks it loads. -/
def accLocal (v6 : Vec F S64x1024 .bf16) (v8 : Vec F S128x2048 .i32) (v9 : Vec F S8x2048 .f32) : FVec F S64x2048 .f32 :=
  k0_pay12 (k0_pay4 v6) v8 v9 k0_pay5
    (k0_pay9 (k0_pay4 v6) v8 v9 k0_pay5 (k0_pay6 v6 v8 v9) (k0_pay7 v6 v8) (k0_pay8 v9))
    (k0_pay10 (k0_pay4 v6) v8 k0_pay5) (k0_pay11 v9)

/-- It is zero plus the eight groups' shares, added in order. -/
theorem accLocal_eq (v6 : Vec F S64x1024 .bf16) (v8 : Vec F S128x2048 .i32) (v9 : Vec F S8x2048 .f32) :
    accLocal v6 v8 v9 =
      (addf (addf (addf (addf (addf (addf (addf (addf (broadcast S64x2048 (Scalar.ofBits .f32 0x00000000#32))
      (grp (extractStridedSlice S64x128 ![0, 0] (k0_pay4 v6) slices_S64x1024_o0_0_S64x128) (extractStridedSlice S16x2048 ![0, 0] v8 slices_S128x2048_o0_0_S16x2048) k0_pay5 (extractStridedSlice S1x2048 ![0, 0] v9 slices_S8x2048_o0_0_S1x2048)))
      (grp (extractStridedSlice S64x128 ![0, 128] (k0_pay4 v6) slices_S64x1024_o0_128_S64x128) (extractStridedSlice S16x2048 ![16, 0] v8 slices_S128x2048_o16_0_S16x2048) k0_pay5 (extractStridedSlice S1x2048 ![1, 0] v9 slices_S8x2048_o1_0_S1x2048)))
      (grp (extractStridedSlice S64x128 ![0, 256] (k0_pay4 v6) slices_S64x1024_o0_256_S64x128) (extractStridedSlice S16x2048 ![32, 0] v8 slices_S128x2048_o32_0_S16x2048) k0_pay5 (extractStridedSlice S1x2048 ![2, 0] v9 slices_S8x2048_o2_0_S1x2048)))
      (grp (extractStridedSlice S64x128 ![0, 384] (k0_pay4 v6) slices_S64x1024_o0_384_S64x128) (extractStridedSlice S16x2048 ![48, 0] v8 slices_S128x2048_o48_0_S16x2048) k0_pay5 (extractStridedSlice S1x2048 ![3, 0] v9 slices_S8x2048_o3_0_S1x2048)))
      (grp (extractStridedSlice S64x128 ![0, 512] (k0_pay4 v6) slices_S64x1024_o0_512_S64x128) (extractStridedSlice S16x2048 ![64, 0] v8 slices_S128x2048_o64_0_S16x2048) k0_pay5 (extractStridedSlice S1x2048 ![4, 0] v9 slices_S8x2048_o4_0_S1x2048)))
      (grp (extractStridedSlice S64x128 ![0, 640] (k0_pay4 v6) slices_S64x1024_o0_640_S64x128) (extractStridedSlice S16x2048 ![80, 0] v8 slices_S128x2048_o80_0_S16x2048) k0_pay5 (extractStridedSlice S1x2048 ![5, 0] v9 slices_S8x2048_o5_0_S1x2048)))
      (grp (extractStridedSlice S64x128 ![0, 768] (k0_pay4 v6) slices_S64x1024_o0_768_S64x128) (extractStridedSlice S16x2048 ![96, 0] v8 slices_S128x2048_o96_0_S16x2048) k0_pay5 (extractStridedSlice S1x2048 ![6, 0] v9 slices_S8x2048_o6_0_S1x2048)))
      (grp (extractStridedSlice S64x128 ![0, 896] (k0_pay4 v6) slices_S64x1024_o0_896_S64x128) (extractStridedSlice S16x2048 ![112, 0] v8 slices_S128x2048_o112_0_S16x2048) k0_pay5 (extractStridedSlice S1x2048 ![7, 0] v9 slices_S8x2048_o7_0_S1x2048))) := rfl

/-- The shift amounts the body builds: lane `j` of the iota along the middle axis, times four. -/
theorem pay5_apply (j : Fin 8) : (k0_pay5 : IVec S1x8x1 32) (ix3 (0 : Fin 1) j (0 : Fin 1)) = shamt j := by
  unfold k0_pay5
  show IntOp.muli (iota .tc S1x8x1 32 [1] iota_S1x8x1_d1_w32 (ix3 (0 : Fin 1) j (0 : Fin 1))) 4#32 = _
  rw [iota_single_apply]
  rfl

/-- Group `g` of a tile at (p, q): x's row over the group's 128 channels against the group's nibbles of column q,
    times the group's scale at q. -/
def tileTerm (xb : FVec Ideal S64x1024 .bf16) (qb : IVec S128x2048 32) (sb : FVec Ideal S8x2048 .f32)
    (p : Fin 64) (q : Fin 2048) (g : Fin 8) : EReal :=
  (∑ r : Fin 128, xb (ix2 p (⟨128 * g.val + r.val, by omega⟩ : Fin 1024))
      * (((nib (qb (ix2 (⟨16 * g.val + r.val / 8, by omega⟩ : Fin 128) q)) ⟨r.val % 8, by omega⟩).toInt : ℝ) : EReal))
    * sb (ix2 g q)

/-- A group's share computed from slices of the three blocks is that group's term. -/
theorem grp_slice_apply (xb : FVec Ideal S64x1024 .bf16) (qb : IVec S128x2048 32) (sb : FVec Ideal S8x2048 .f32)
    (g : Fin 8) (ox oq os : Nat) (hox : ox = 128 * g.val) (hoq : oq = 16 * g.val) (hos : os = g.val)
    (hx : S64x1024.Slices ![0, ox] S64x128) (hq : S128x2048.Slices ![oq, 0] S16x2048)
    (hs : S8x2048.Slices ![os, 0] S1x2048) (p : Fin 64) (q : Fin 2048) :
    grp (extractStridedSlice S64x128 ![0, ox] xb hx) (extractStridedSlice S16x2048 ![oq, 0] qb hq) k0_pay5
        (extractStridedSlice S1x2048 ![os, 0] sb hs) (ix2 p q)
      = tileTerm xb qb sb p q g := by
  rw [grp_apply _ _ _ _ pay5_apply]
  unfold tileTerm
  rw [slice2_axis0_apply os sb hs (0 : Fin 1) q g (by omega)]
  congr 1
  refine Finset.sum_congr rfl fun r _ => ?_
  rw [slice2_axis1_apply ox xb hx p r (⟨128 * g.val + r.val, by omega⟩ : Fin 1024) (by show 128 * g.val + r.val = ox + r.val; omega),
    slice2_axis0_apply oq qb hq (⟨r.val / 8, by omega⟩ : Fin 16) q (⟨16 * g.val + r.val / 8, by omega⟩ : Fin 128)
      (by show 16 * g.val + r.val / 8 = oq + r.val / 8; omega)]

/-- The local accumulator at (p, q): the sum of the tile's eight group terms. -/
theorem accLocal_apply (xb : FVec Ideal S64x1024 .bf16) (qb : IVec S128x2048 32) (sb : FVec Ideal S8x2048 .f32)
    (p : Fin 64) (q : Fin 2048) :
    accLocal (F := Ideal) xb qb sb (ix2 p q) = ∑ g : Fin 8, tileTerm xb qb sb p q g := by
  rw [accLocal_eq]
  simp only [addf_apply]
  have hz : (k0_pay4 (F := Ideal) xb) = xb := shapeCast_self _ _
  rw [hz,
    grp_slice_apply xb qb sb 0 0 0 0 rfl rfl rfl, grp_slice_apply xb qb sb 1 128 16 1 rfl rfl rfl,
    grp_slice_apply xb qb sb 2 256 32 2 rfl rfl rfl, grp_slice_apply xb qb sb 3 384 48 3 rfl rfl rfl,
    grp_slice_apply xb qb sb 4 512 64 4 rfl rfl rfl, grp_slice_apply xb qb sb 5 640 80 5 rfl rfl rfl,
    grp_slice_apply xb qb sb 6 768 96 6 rfl rfl rfl, grp_slice_apply xb qb sb 7 896 112 7 rfl rfl rfl,
    Fin.sum_univ_eight]
  show (Ideal.ofBits .f32 0x00000000#32 : EReal) + _ + _ + _ + _ + _ + _ + _ + _ = _
  rw [Ideal.ofBits_zero_f32, zero_add]

end Cert.KernelIdeal.BodyVal

end
-- ==== Proof.KPieces.lean ====
/-
  What the body leaves behind at a grid point, case by case, as values of the blocks it read.

  First point of a column block (k = 0): the accumulator is reset to zero and then takes the point's local
  accumulator. Middle points: the accumulator takes the local accumulator on top of what the point before left.
  Last point (k = 7): the same, and the output block is the accumulator plus the block of the host-computed
  correction.
-/
import proofs.«417928_j19765439496679_3_alg».proof.Proof.Gen.KernelIdeal.Frame
import proofs.«417928_j19765439496679_3_alg».proof.Proof.KBody

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem Cert.KernelIdeal.BodyVal

variable {F : FTy → Type} [FloatOps F]

theorem hz2 : (![0, 0] : Fin 2 → Nat) = fun _ => 0 := by
  funext a; fin_cases a <;> rfl

/-- The tile of x the body loads at point `i`: all 64 rows, the 1024 columns from `1024 · k`. -/
def xtile (i : grid0.Coords) (x0 : Vec F S64x8192 .bf16) : Vec F S64x1024 .bf16 :=
  View.ld x0 (Rect.unit (s := S64x8192) (k0_off1 i) S64x1024.size (k0_off1_inb i))

/-- First point of a column block: zero, then the local accumulator on top. -/
theorem sout_A (c : Dev nD) (i : grid0.Coords) (arg2 : Memref sig .tc .vmem S64x8192 .bf16) (harg2 : arg2.IsWhole) (arg3 : Memref sig .tc .vmem S128x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (hc0 : cond0_0 i) (hc1 : ¬cond0_1 i) (x0 : Vec F S64x8192 .bf16) (x1 : Vec F S128x2048 .i32) (x2 : Vec F S8x2048 .f32) (x3 : Vec F S64x2048 .f32) :
    sout0_A_0 c i arg2 harg2 arg3 harg3 arg4 harg4 arg5 harg5 arg6 harg6 arg7 harg7 hc0 hc1 x0 x1 x2 x3 = k0_pay1 (accLocal (xtile i x0) x1 x2) k0_pay3 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S64x2048) hz2, View.readCov_unit_zero (S := S64x2048) _ hz2]
  simp only [View.readAt_eq_ld, harg2.read_unread, harg3.read_unread, harg4.read_unread, harg5.read_unread, harg7.read_unread,
    View.ld_unit_zero (S := S128x2048) hz2, View.ld_unit_zero (S := S8x2048) hz2, View.ld_unit_zero (S := S64x2048) hz2]
  unfold accLocal xtile
  sl_unfold_words
  rfl

/-- A middle point: the local accumulator on top of what the point before left. -/
theorem sout_B (c : Dev nD) (i : grid0.Coords) (arg2 : Memref sig .tc .vmem S64x8192 .bf16) (harg2 : arg2.IsWhole) (arg3 : Memref sig .tc .vmem S128x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (hc0 : ¬cond0_0 i) (hc1 : ¬cond0_1 i) (x0 : Vec F S64x8192 .bf16) (x1 : Vec F S128x2048 .i32) (x2 : Vec F S8x2048 .f32) (x3 : Vec F S64x2048 .f32) (xs0 : Vec F S64x2048 .f32) :
    sout0_B_0 c i arg2 harg2 arg3 harg3 arg4 harg4 arg5 harg5 arg6 harg6 arg7 harg7 hc0 hc1 x0 x1 x2 x3 xs0 = k0_pay1 (accLocal (xtile i x0) x1 x2) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S64x2048) hz2]
  simp only [View.readAt_eq_ld, harg2.read_unread, harg3.read_unread, harg4.read_unread, harg5.read_unread, harg7.read_unread,
    View.ld_unit_zero (S := S128x2048) hz2, View.ld_unit_zero (S := S8x2048) hz2, View.ld_unit_zero (S := S64x2048) hz2]
  unfold accLocal xtile
  sl_unfold_words
  rfl

/-- The last point of a column block: the accumulator as at a middle point … -/
theorem sout_C (c : Dev nD) (i : grid0.Coords) (arg2 : Memref sig .tc .vmem S64x8192 .bf16) (harg2 : arg2.IsWhole) (arg3 : Memref sig .tc .vmem S128x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (hc0 : ¬cond0_0 i) (hc1 : cond0_1 i) (x0 : Vec F S64x8192 .bf16) (x1 : Vec F S128x2048 .i32) (x2 : Vec F S8x2048 .f32) (x3 : Vec F S64x2048 .f32) (xs0 : Vec F S64x2048 .f32) :
    sout0_C_0 c i arg2 harg2 arg3 harg3 arg4 harg4 arg5 harg5 arg6 harg6 arg7 harg7 hc0 hc1 x0 x1 x2 x3 xs0 = k0_pay1 (accLocal (xtile i x0) x1 x2) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S64x2048) hz2]
  simp only [View.readAt_eq_ld, harg2.read_unread, harg3.read_unread, harg4.read_unread, harg5.read_unread, harg7.read_unread,
    View.ld_unit_zero (S := S128x2048) hz2, View.ld_unit_zero (S := S8x2048) hz2, View.ld_unit_zero (S := S64x2048) hz2]
  unfold accLocal xtile
  sl_unfold_words
  rfl

/-- … and the output block: that accumulator plus the correction's block. -/
theorem out_C (c : Dev nD) (i : grid0.Coords) (arg2 : Memref sig .tc .vmem S64x8192 .bf16) (harg2 : arg2.IsWhole) (arg3 : Memref sig .tc .vmem S128x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S64x2048 .f32) (harg7 : arg7.IsWhole) (hc0 : ¬cond0_0 i) (hc1 : cond0_1 i) (x0 : Vec F S64x8192 .bf16) (x1 : Vec F S128x2048 .i32) (x2 : Vec F S8x2048 .f32) (x3 : Vec F S64x2048 .f32) (xs0 : Vec F S64x2048 .f32) :
    out0_C_4 c i arg2 harg2 arg3 harg3 arg4 harg4 arg5 harg5 arg6 harg6 arg7 harg7 hc0 hc1 x0 x1 x2 x3 xs0 = k0_pay2 (k0_pay1 (accLocal (xtile i x0) x1 x2) xs0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S64x2048) hz2, View.readCov_unit_zero (S := S64x2048) _ hz2]
  simp only [View.readAt_eq_ld, harg2.read_unread, harg3.read_unread, harg4.read_unread, harg5.read_unread, harg7.read_unread,
    View.ld_unit_zero (S := S128x2048) hz2, View.ld_unit_zero (S := S8x2048) hz2, View.ld_unit_zero (S := S64x2048) hz2]
  unfold accLocal xtile
  sl_unfold_words
  rfl

end Cert.KernelIdeal.Pieces

end
-- ==== Proof.KHost.lean ====
/-
  The two arrays the kernel's wrapper computes on the host before the launch, read at an index: x in the narrower
  float format (the same numbers over the extended reals), and minus the zero points against the group sums of x,
  plus the bias.

  The host prefix is a straight line of elementwise, layout and contraction operations. Its composed term is one
  function `hostTerm` of the argument arrays; each layout operation is read at an index by naming the operand index
  it reads (a broadcast keeps the coordinates of the axes it copies from, a reshape keeps the row-major position),
  the reduction over the last axis is the sum over that axis from zero, and the product is the sum over the one
  contracted axis. At an index the term is then literally `WolSpec.nzbVal`.
-/
import proofs.«417928_j19765439496679_3_alg».proof.Proof.Gen.KernelIdeal.Frame
import proofs.«417928_j19765439496679_3_alg».proof.Proof.Spec
import Idealize.ShloMosaic.Lib.Pipeline.Value
import Idealize.ShloMosaic.Lib.StackMember

noncomputable section

namespace Cert.KernelIdeal.HostVal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The layout operations of the host prefix, read at an index -/

section Reads
variable {α : Type}

/-- A word of the packed zero points repeated along a new last axis of length 8
    ([64,1024] → [64,1024,1] → [64,1024,8]): at (G, r, l) it is the word at (G, r). -/
theorem wordBcast_apply (h₁ : S64x1024.BroadcastsInDim S64x1024x1 ![0, 1])
    (h₂ : S64x1024x1.BroadcastsInDim S64x1024x8 ![0, 1, 2]) (q : S64x1024.Idx → α)
    (G : Fin 64) (r : Fin 1024) (l : Fin 8) :
    broadcastInDim S64x1024x8 ![0, 1, 2] h₂ (broadcastInDim S64x1024x1 ![0, 1] h₁ q) (ix3 G r l) = q (ix2 G r) := by
  refine (broadcastInDim_apply _ h₂ _ (ix3 G r l) (ix3 G r (0 : Fin 1)) ?_).trans
    (broadcastInDim_apply _ h₁ q (ix3 G r (0 : Fin 1)) (ix2 G r) ?_)
  · intro a
    match a with
    | ⟨0, _⟩ => rfl
    | ⟨1, _⟩ => rfl
    | ⟨2, _⟩ => rfl
  · intro a
    match a with
    | ⟨0, _⟩ => rfl
    | ⟨1, _⟩ => rfl

/-- The eight shift amounts repeated over every word ([8] → [1,1,8] → [64,1024,8]): at (G, r, l) it is
    the amount of lane l. -/
theorem laneBcast_apply (h₁ : S8.BroadcastsInDim S1x1x8 ![2])
    (h₂ : S1x1x8.BroadcastsInDim S64x1024x8 ![0, 1, 2]) (v : S8.Idx → α)
    (G : Fin 64) (r : Fin 1024) (l : Fin 8) :
    broadcastInDim S64x1024x8 ![0, 1, 2] h₂ (broadcastInDim S1x1x8 ![2] h₁ v) (ix3 G r l) = v (ix1 l) := by
  refine (broadcastInDim_apply _ h₂ _ (ix3 G r l) (ix3 (0 : Fin 1) (0 : Fin 1) l) ?_).trans
    (broadcastInDim_apply _ h₁ v (ix3 (0 : Fin 1) (0 : Fin 1) l) (ix1 l) ?_)
  · intro a
    match a with
    | ⟨0, _⟩ => rfl
    | ⟨1, _⟩ => rfl
    | ⟨2, _⟩ => rfl
  · intro a
    match a with
    | ⟨0, _⟩ => rfl

/-- The bias repeated down the rows ([8192] → [1,8192] → [64,8192]): at (p, n) it is the bias at n. -/
theorem biasBcast_apply (h₁ : S8192.BroadcastsInDim S1x8192 ![1])
    (h₂ : S1x8192.BroadcastsInDim S64x8192 ![0, 1]) (b : S8192.Idx → α) (p : Fin 64) (n : Fin 8192) :
    broadcastInDim S64x8192 ![0, 1] h₂ (broadcastInDim S1x8192 ![1] h₁ b) (ix2 p n) = b (ix1 n) := by
  refine (broadcastInDim_apply _ h₂ _ (ix2 p n) (ix2 (0 : Fin 1) n) ?_).trans
    (broadcastInDim_apply _ h₁ b (ix2 (0 : Fin 1) n) (ix1 n) ?_)
  · intro a
    match a with
    | ⟨0, _⟩ => rfl
    | ⟨1, _⟩ => rfl
  · intro a
    match a with
    | ⟨0, _⟩ => rfl

/-- The nibbles laid out flat ([64,1024,8] → [64,8192]): column n of row G is lane n % 8 of word n / 8. -/
theorem flat_apply (h : S64x1024x8.ShapeCasts S64x8192) (x : S64x1024x8.Idx → α) (G : Fin 64) (n : Fin 8192) :
    shapeCast S64x8192 x h (ix2 G n) = x (ix3 G (Cert.WolSpec.rowOf n) (Cert.WolSpec.lane n)) := by
  refine shapeCast_apply x h (ix2 G n) (ix3 G (Cert.WolSpec.rowOf n) (Cert.WolSpec.lane n)) ?_
  rw [Shape.rowMajor_val_three, Shape.rowMajor_val_two]
  show (G.val * 1024 + n.val / 8) * 8 + n.val % 8 = G.val * 8192 + n.val
  omega

/-- x split into groups of 128 input channels ([64,8192] → [64,64,128]): channel j of group G of row p is
    channel 128·G + j. -/
theorem groups_apply (h : S64x8192.ShapeCasts S64x64x128) (x : S64x8192.Idx → α) (p : Fin 64) (G : Fin 64) (j : Fin 128) :
    shapeCast S64x64x128 x h (ix3 p G j) = x (ix2 p (Cert.WolSpec.cat G j)) := by
  refine shapeCast_apply x h (ix3 p G j) (ix2 p (Cert.WolSpec.cat G j)) ?_
  rw [Shape.rowMajor_val_three, Shape.rowMajor_val_two]
  show p.val * 8192 + (128 * G.val + j.val) = (p.val * 64 + G.val) * 128 + j.val
  omega

end Reads

/-! ## The host prefix as one function of the argument arrays -/

section Term

/-- The raw nibbles of the packed zero points, laid out flat: every word shifted right by 0, 4, …, 28 and masked
    with 15, [64,1024,8] read as [64,8192]. -/
def nibArr (qz : IVec S64x1024 32) : IVec S64x8192 32 :=
  fun i => shapeCast S64x8192
    (andi
      (Host.shrsi
        (broadcastInDim S64x1024x8 ![0, 1, 2] bcast_S64x1024x1_S64x1024x8_0_1_2
          (broadcastInDim S64x1024x1 ![0, 1] bcast_S64x1024_S64x1024x1_0_1 qz))
        (broadcastInDim S64x1024x8 ![0, 1, 2] bcast_S1x1x8_S64x1024x8_0_1_2
          (broadcastInDim S1x1x8 ![2] bcast_S8_S1x1x8_2
            (muli (iotaInDim S8 32 0) (broadcastInDim S8 ![] bcast_S_S8 (constantI S_ 32 4#32))))))
      (broadcastInDim S64x1024x8 ![] bcast_S_S64x1024x8 (constantI S_ 32 15#32)))
    shapeCasts_S64x1024x8_S64x8192 i

/-- The zero points as integers: the nibble plus one, and zero where that exceeds 15. -/
def zpArr (qz : IVec S64x1024 32) : IVec S64x8192 32 :=
  select
    (cmpi .sgt (addi (nibArr qz) (broadcastInDim S64x8192 ![] bcast_S_S64x8192 (constantI S_ 32 1#32)))
      (broadcastInDim S64x8192 ![] bcast_S_S64x8192 (constantI S_ 32 15#32)))
    (broadcastInDim S64x8192 ![] bcast_S_S64x8192 (constantI S_ 32 0#32))
    (addi (nibArr qz) (broadcastInDim S64x8192 ![] bcast_S_S64x8192 (constantI S_ 32 1#32)))

/-- The group sums of x: x through the narrower float format and back, split into groups of 128 channels, each
    group summed from zero. -/
def xsumArr (x : FVec Ideal S64x8192 .f32) : FVec Ideal S64x64 .f32 :=
  Host.reduceAdd (F := Ideal)
    (fun i => shapeCast S64x64x128 (extf .f32 (truncf .bf16 x bitsLt_bf16_f32) bitsLt_bf16_f32)
      shapeCasts_S64x8192_S64x64x128 i)
    (constant (F := Ideal) S_ .f32 0x00000000#32) reducesTo_S64x64x128_S64x64_d2 h_S_

/-- The fourth operand of the launch: minus the group sums of x against the scaled zero points, plus the bias. -/
def hostTerm (x : FVec Ideal S64x8192 .f32) (qz : IVec S64x1024 32) (s : FVec Ideal S64x8192 .f32)
    (b : FVec Ideal S8192 .f32) : FVec Ideal S64x8192 .f32 :=
  addf
    (Host.negf (F := Ideal)
      (Host.dotGeneral (F := Ideal) dot_S64x64_S64x8192_S64x8192_1_0_0_1_n_n (some .fp32) (xsumArr x)
        (mulf (sitofp .f32 (zpArr qz)) s)))
    (broadcastInDim S64x8192 ![0, 1] bcast_S1x8192_S64x8192_0_1
      (broadcastInDim S1x8192 ![1] bcast_S8192_S1x8192_1 b))

/-- A flat nibble is Spec's nibble of the word that holds it. -/
theorem nibArr_apply (qz : IVec S64x1024 32) (G : Fin 64) (n : Fin 8192) :
    nibArr qz (ix2 G n) = Cert.WolSpec.nib (qz (ix2 G (Cert.WolSpec.rowOf n))) (Cert.WolSpec.lane n) := by
  unfold nibArr
  rw [flat_apply]
  show IntOp.andi (IntOp.shrsi .host
      (broadcastInDim S64x1024x8 ![0, 1, 2] bcast_S64x1024x1_S64x1024x8_0_1_2
        (broadcastInDim S64x1024x1 ![0, 1] bcast_S64x1024_S64x1024x1_0_1 qz)
        (ix3 G (Cert.WolSpec.rowOf n) (Cert.WolSpec.lane n)))
      (broadcastInDim S64x1024x8 ![0, 1, 2] bcast_S1x1x8_S64x1024x8_0_1_2
        (broadcastInDim S1x1x8 ![2] bcast_S8_S1x1x8_2
          (muli (iotaInDim S8 32 0) (broadcastInDim S8 ![] bcast_S_S8 (constantI S_ 32 4#32))))
        (ix3 G (Cert.WolSpec.rowOf n) (Cert.WolSpec.lane n)))) 15#32 = _
  rw [wordBcast_apply, laneBcast_apply]
  rfl

/-- A zero point of the host's array is Spec's zero point of the word that holds it. -/
theorem zpArr_apply (qz : IVec S64x1024 32) (G : Fin 64) (n : Fin 8192) :
    zpArr qz (ix2 G n) = Cert.WolSpec.zpw (qz (ix2 G (Cert.WolSpec.rowOf n))) (Cert.WolSpec.lane n) := by
  show Scalar.select (IntOp.cmpi .sgt (IntOp.addi (nibArr qz (ix2 G n)) 1#32) 15#32) 0#32
      (IntOp.addi (nibArr qz (ix2 G n)) 1#32) = _
  rw [nibArr_apply]
  rfl

/-- A group sum of the host's array is the sum of x over the group's 128 channels. -/
theorem xsumArr_apply (x : FVec Ideal S64x8192 .f32) (p : Fin 64) (G : Fin 64) :
    xsumArr x (ix2 p G) = ∑ j : Fin 128, x (ix2 p (Cert.WolSpec.cat G j)) := by
  have hR : S64x64x128.Reduces [2] S64x64 := by decide
  unfold xsumArr
  show Ideal.hostReduceAdd reducesTo_S64x64x128_S64x64_d2
      (fun i => shapeCast S64x64x128 (extf .f32 (truncf .bf16 x bitsLt_bf16_f32) bitsLt_bf16_f32)
        shapeCasts_S64x8192_S64x64x128 i) (Ideal.ofBits .f32 0x00000000#32) (ix2 p G) = _
  rw [Ideal.hostReduceAdd_single _ hR, Ideal.ofBits_zero_f32, zero_add]
  refine Finset.sum_congr rfl fun (j : Fin 128) _ => ?_
  have hl : hR.lift (ix2 p G) j = ix3 p G j := by
    funext a
    match a with
    | ⟨0, _⟩ => rfl
    | ⟨1, _⟩ => rfl
    | ⟨2, _⟩ => rfl
  show shapeCast S64x64x128 (extf .f32 (truncf .bf16 x bitsLt_bf16_f32) bitsLt_bf16_f32)
      shapeCasts_S64x8192_S64x64x128 (hR.lift (ix2 p G) j) = _
  rw [hl, groups_apply]
  rfl

/-- The host's product of the group sums with the scaled zero points, at an index: the sum over the groups. -/
theorem hostDot_apply (l : FVec Ideal S64x64 .f32) (r : FVec Ideal S64x8192 .f32) (p : Fin 64) (n : Fin 8192) :
    Host.dotGeneral (F := Ideal) dot_S64x64_S64x8192_S64x8192_1_0_0_1_n_n (some .fp32) l r (ix2 p n)
      = ∑ G : Fin 64, l (ix2 p G) * r (ix2 G n) :=
  Idealize.ShloMosaic.StackMember.dotGeneral_plain_apply (m := 64) (n := 8192) (k := 64) (some .fp32) l r p n

/-- The fourth operand of the launch at an index is Spec's `nzbVal`. -/
theorem hostTerm_apply (x : FVec Ideal S64x8192 .f32) (qz : IVec S64x1024 32) (s : FVec Ideal S64x8192 .f32)
    (b : FVec Ideal S8192 .f32) (p : Fin 64) (n : Fin 8192) :
    hostTerm x qz s b (ix2 p n) = Cert.WolSpec.nzbVal x qz s b p n := by
  unfold hostTerm Cert.WolSpec.nzbVal Cert.WolSpec.zv
  rw [addf_apply, biasBcast_apply]
  show -(Host.dotGeneral (F := Ideal) dot_S64x64_S64x8192_S64x8192_1_0_0_1_n_n (some .fp32) (xsumArr x)
      (mulf (sitofp .f32 (zpArr qz)) s) (ix2 p n)) + b (ix1 n) = _
  rw [hostDot_apply]
  refine congrArg (fun t => -t + b (ix1 n)) (Finset.sum_congr rfl fun G _ => ?_)
  rw [xsumArr_apply, mulf_apply]
  show _ * (((((zpArr qz (ix2 G n)).toInt : ℝ) : EReal)) * s (ix2 G n)) = _
  rw [zpArr_apply]

end Term

/-! ## The two operands of the launch that the host prefix writes -/

/-- The first operand of the launch holds x. -/
theorem V_v18 (c : Dev nD) (i : S64x8192.Idx) :
    V m c main_v18 i = m ((c : Thread nD τ).loc main_arg0) i := by
  have e : (V m c main_v18 : S64x8192.Idx → EReal)
      = (truncf .bf16 (m ((c : Thread nD τ).loc main_arg0) : FVec Ideal S64x8192 .f32) bitsLt_bf16_f32 :
          FVec Ideal S64x8192 .bf16) := by
    dsimp only [Gen.V]
    simp only [Gen.hostOps0, Gen.hostOps0_1, Gen.hostOps0_2, List.flatten_cons, List.flatten_nil, List.append_nil, List.cons_append, List.nil_append]
    after_results_simp
    all_goals rfl
  exact congrFun e i

/-- The fourth operand of the launch holds `WolSpec.nzbVal`. -/
theorem V_v26 (c : Dev nD) (p : Fin 64) (n : Fin 8192) :
    V m c main_v26 (ix2 p n)
      = Cert.WolSpec.nzbVal (m ((c : Thread nD τ).loc main_arg0)) (m ((c : Thread nD τ).loc main_arg2))
          (m ((c : Thread nD τ).loc main_arg3)) (m ((c : Thread nD τ).loc main_arg4)) p n := by
  have e : (V m c main_v26 : S64x8192.Idx → EReal)
      = hostTerm (m ((c : Thread nD τ).loc main_arg0)) (m ((c : Thread nD τ).loc main_arg2))
          (m ((c : Thread nD τ).loc main_arg3)) (m ((c : Thread nD τ).loc main_arg4)) := by
    dsimp only [Gen.V]
    simp only [Gen.hostOps0, Gen.hostOps0_1, Gen.hostOps0_2, List.flatten_cons, List.flatten_nil, List.append_nil, List.cons_append, List.nil_append]
    after_results_simp
    all_goals rfl
  exact (congrFun e (ix2 p n)).trans (hostTerm_apply _ _ _ _ p n)

end Cert.KernelIdeal.HostVal

end
-- ==== Proof.KFinal.lean ====
/-
  The kernel's result array.

  The grid has 4 column blocks of 2048 output columns and, inside each, 8 points over the K tiles of 1024 input
  channels; point t is column block t / 8, K tile t % 8. At point t the body sees all of x (and takes columns
  1024·(t%8) … of it), rows 128·(t%8) … of the packed weight and rows 8·(t%8) … of the scales at columns
  2048·(t/8) …, and the column block of the host-computed correction. The carried accumulator after point t holds the
  sum of the local accumulators of the points of its column block so far; the last point of a column block writes
  the accumulator plus the correction into the output's column block. So the output at (p, n) is the sum over all 64
  groups of the group's term, plus the correction: `WolSpec.kerVal`.
-/
import proofs.«417928_j19765439496679_3_alg».proof.Proof.Gen.KernelIdeal.Value
import proofs.«417928_j19765439496679_3_alg».proof.Proof.KPieces
import proofs.«417928_j19765439496679_3_alg».proof.Proof.KHost
import Idealize.ShloMosaic.Lib.Pipeline.Value

set_option maxRecDepth 16384

noncomputable section

namespace Cert.KernelIdeal.FinalVal

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.BodyVal Cert.KernelIdeal.Pieces Cert.WolSpec

variable (m : (ℓ : Loc nD τ sig) → Buf (Elt Ideal) ℓ) (ρ : Dev nD → PrngReg)

/-- The printed index maps over the grid: point t is column block t / 8, K tile t % 8. -/
theorem idx_facts : ∀ t : Fin cfg0.N,
    win0_0.index t (0 : Fin 2) = 0 ∧ win0_0.index t (1 : Fin 2) = 0
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = 0 ∧ win0_3.index t (1 : Fin 2) = t.val / 8
    ∧ win0_4.index t (0 : Fin 2) = 0 ∧ win0_4.index t (1 : Fin 2) = t.val / 8
    ∧ (grid0.coords t 1).val = t.val % 8 :=
  (by decide +kernel : ∀ t : Fin grid0.N, _)

/-- The blocks of a point, at their literal types. -/
abbrev xblk (c : Dev nD) (t : Fin cfg0.N) : Vec Ideal S64x8192 .bf16 := iblk m c 0 t
abbrev qblk (c : Dev nD) (t : Fin cfg0.N) : IVec S128x2048 32 := iblk m c 1 t
abbrev sblk (c : Dev nD) (t : Fin cfg0.N) : Vec Ideal S8x2048 .f32 := iblk m c 2 t
abbrev nblk (c : Dev nD) (t : Fin cfg0.N) : Vec Ideal S64x2048 .f32 := iblk m c 3 t

/-- The x tile of point t: columns 1024·(t % 8) … of x. -/
theorem xtile_apply (c : Dev nD) (t : Fin cfg0.N) (p : Fin 64) (j : Fin 1024) :
    xtile (grid0.coords t) (xblk m c t) (ix2 p j)
      = V m c main_v18 (ix2 p (⟨1024 * (t.val % 8) + j.val, by omega⟩ : Fin 8192)) := by
  obtain ⟨e0, e1, -, -, -, -, -, -, -, -, ek⟩ := idx_facts t
  unfold xtile xblk iblk
  show V m c main_v18 _ = V m c main_v18 _
  congr 1
  funext a
  apply Fin.ext
  match a with
  | ⟨0, _⟩ =>
    show win0_0.index t (0 : Fin 2) * 64 + 1 * (k0_off1 (grid0.coords t) 0 + 1 * p.val) = p.val
    rw [k0_off1_eq, e0]; show 0 * 64 + 1 * (0 + 1 * p.val) = p.val; omega
  | ⟨1, _⟩ =>
    show win0_0.index t (1 : Fin 2) * 8192 + 1 * (k0_off1 (grid0.coords t) 1 + 1 * j.val) = 1024 * (t.val % 8) + j.val
    rw [k0_off1_eq, e1]; show 0 * 8192 + 1 * (1024 * (grid0.coords t 1).val + 1 * j.val) = _; rw [ek]; omega

/-- The packed-weight block of point t: rows 128·(t % 8) …, columns 2048·(t / 8) …. -/
theorem qblk_apply (c : Dev nD) (t : Fin cfg0.N) (r : Fin 128) (q : Fin 2048) :
    qblk m c t (ix2 r q)
      = V m c main_arg1 (ix2 (⟨128 * (t.val % 8) + r.val, by omega⟩ : Fin 1024)
          (⟨2048 * (t.val / 8) + q.val, by have := t.isLt; have : cfg0.N = 32 := N_0; omega⟩ : Fin 8192)) := by
  obtain ⟨-, -, e0, e1, -, -, -, -, -, -, -⟩ := idx_facts t
  unfold qblk iblk
  show V m c main_arg1 _ = V m c main_arg1 _
  congr 1
  funext a
  apply Fin.ext
  match a with
  | ⟨0, _⟩ => show win0_1.index t (0 : Fin 2) * 128 + 1 * r.val = 128 * (t.val % 8) + r.val; rw [e0]; omega
  | ⟨1, _⟩ => show win0_1.index t (1 : Fin 2) * 2048 + 1 * q.val = 2048 * (t.val / 8) + q.val; rw [e1]; omega

/-- The scales block of point t: rows 8·(t % 8) …, columns 2048·(t / 8) …. -/
theorem sblk_apply (c : Dev nD) (t : Fin cfg0.N) (g : Fin 8) (q : Fin 2048) :
    sblk m c t (ix2 g q)
      = V m c main_arg3 (ix2 (⟨8 * (t.val % 8) + g.val, by omega⟩ : Fin 64)
          (⟨2048 * (t.val / 8) + q.val, by have := t.isLt; have : cfg0.N = 32 := N_0; omega⟩ : Fin 8192)) := by
  obtain ⟨-, -, -, -, e0, e1, -, -, -, -, -⟩ := idx_facts t
  unfold sblk iblk
  show V m c main_arg3 _ = V m c main_arg3 _
  congr 1
  funext a
  apply Fin.ext
  match a with
  | ⟨0, _⟩ => show win0_2.index t (0 : Fin 2) * 8 + 1 * g.val = 8 * (t.val % 8) + g.val; rw [e0]; omega
  | ⟨1, _⟩ => show win0_2.index t (1 : Fin 2) * 2048 + 1 * q.val = 2048 * (t.val / 8) + q.val; rw [e1]; omega

/-- The correction's block of point t: all rows, columns 2048·(t / 8) …. -/
theorem nblk_apply (c : Dev nD) (t : Fin cfg0.N) (p : Fin 64) (q : Fin 2048) :
    nblk m c t (ix2 p q)
      = V m c main_v26 (ix2 p (⟨2048 * (t.val / 8) + q.val, by have := t.isLt; have : cfg0.N = 32 := N_0; omega⟩ : Fin 8192)) := by
  obtain ⟨-, -, -, -, -, -, e0, e1, -, -, -⟩ := idx_facts t
  unfold nblk iblk
  show V m c main_v26 _ = V m c main_v26 _
  congr 1
  funext a
  apply Fin.ext
  match a with
  | ⟨0, _⟩ => show win0_3.index t (0 : Fin 2) * 64 + 1 * p.val = p.val; rw [e0]; omega
  | ⟨1, _⟩ => show win0_3.index t (1 : Fin 2) * 2048 + 1 * q.val = 2048 * (t.val / 8) + q.val; rw [e1]; omega

/-- The accumulator's update at an index: what was there plus the local accumulator. -/
theorem pay1_apply (a b : Vec Ideal S64x2048 .f32) (i : S64x2048.Idx) : k0_pay1 (F := Ideal) a b i = b i + a i := by
  unfold k0_pay1; rw [shapeCast_self]; rfl

/-- The output at an index: the accumulator plus the correction. -/
theorem pay2_apply (a b : Vec Ideal S64x2048 .f32) (i : S64x2048.Idx) : k0_pay2 (F := Ideal) a b i = a i + b i := by
  unfold k0_pay2; rw [shapeCast_self]; rfl

/-- The reset value is zero. -/
theorem pay3_apply (i : S64x2048.Idx) : (k0_pay3 (F := Ideal)) i = 0 := by
  unfold k0_pay3; rw [shapeCast_self]
  show Ideal.ofBits .f32 0x00000000#32 = 0
  exact Ideal.ofBits_zero_f32

/-- Point n's local accumulator (zero for a number past the grid, never used). -/
def M (c : Dev nD) (n : ℕ) : S64x2048.Idx → EReal := fun i =>
  if h : n < cfg0.N then
    accLocal (F := Ideal) (xtile (grid0.coords ⟨n, h⟩) (xblk m c ⟨n, h⟩)) (qblk m c ⟨n, h⟩) (sblk m c ⟨n, h⟩) i
  else 0

/-- THE ACCUMULATOR after point t: the local accumulators of the points of t's column block up to t, added up. -/
theorem scratch_apply (c : Dev nD) (t : Fin cfg0.N) (i : S64x2048.Idx) :
    (outsAt0 m c t.val t.isLt).2 i = 0 + ∑ s ∈ Finset.range (t.val % 8 + 1), M m c (8 * (t.val / 8) + s) i := by
  rw [Cert.KernelIdeal.Value.soutsAt0_0_eq m c t]
  refine Pipeline.accAt_add_apply (ι := S64x2048.Idx) (β := EReal)
    (fun n h => Cert.KernelIdeal.Value.scAt0_0 m c n h (VS0_0.read (Elt Ideal) VS0_0.junk))
    (Cert.KernelIdeal.Value.scAt0_0 m c) (fun _ => 0) (M m c) (8 * (t.val / 8)) 7 ?ha ?hg (t.val % 8) (by omega) _ i
  case ha =>
    intro h i
    have hb0 : 8 * (t.val / 8) % 8 = 0 := by omega
    have hb7 : ¬8 * (t.val / 8) % 8 = 7 := by omega
    show Cert.KernelIdeal.Value.scAt0_0 m c (8 * (t.val / 8)) h _ i = 0 + M m c (8 * (t.val / 8)) i
    unfold Cert.KernelIdeal.Value.scAt0_0
    rw [dif_pos hb0, dif_neg hb7, sout_A, pay1_apply, pay3_apply]
    unfold M
    rw [dif_pos h]
  case hg =>
    intro n h acc i h1 h2
    have h0 : ¬n % 8 = 0 := by omega
    unfold Cert.KernelIdeal.Value.scAt0_0
    rw [dif_neg h0]
    by_cases h7 : n % 8 = 7
    · rw [dif_pos h7, sout_C, pay1_apply]
      unfold M
      rw [dif_pos h]
    · rw [dif_neg h7, sout_B, pay1_apply]
      unfold M
      rw [dif_pos h]

/-- Point t's local accumulator at (p, q), in the arrays' own indices: the eight groups 8·(t % 8) + g of output
    column 2048·(t / 8) + q. -/
theorem M_apply (c : Dev nD) (t : Fin cfg0.N) (p : Fin 64) (q : Fin 2048) :
    M m c t.val (ix2 p q)
      = ∑ g : Fin 8, grpTerm (V m c main_v18) (V m c main_arg1) (V m c main_arg3) p
          (⟨2048 * (t.val / 8) + q.val, by have := t.isLt; have : cfg0.N = 32 := N_0; omega⟩ : Fin 8192)
          (⟨8 * (t.val % 8) + g.val, by omega⟩ : Fin 64) := by
  unfold M
  rw [dif_pos t.isLt, accLocal_apply]
  refine Finset.sum_congr rfl fun g _ => ?_
  unfold tileTerm grpTerm
  rw [sblk_apply]
  refine congrArg₂ (fun a b : EReal => a * b) ?_ rfl
  refine Finset.sum_congr rfl fun r _ => ?_
  rw [xtile_apply, qblk_apply]
  unfold wv
  refine congrArg₂ (fun a b : EReal => a * b)
    (congrArg (V m c main_v18) (congrArg (ix2 p) (Fin.ext ?_)))
    (congrArg (fun w : BitVec 32 => (((w.toInt : ℝ)) : EReal))
      (congrArg₂ nib (congrArg (V m c main_arg1) (congrArg₂ ix2 (Fin.ext ?_) rfl)) (Fin.ext ?_)))
  · show 1024 * (t.val % 8) + (128 * g.val + r.val) = 128 * (8 * (t.val % 8) + g.val) + r.val
    omega
  · show 128 * (t.val % 8) + (16 * g.val + r.val / 8) = (128 * (8 * (t.val % 8) + g.val) + r.val) / 8
    omega
  · show r.val % 8 = (128 * (8 * (t.val % 8) + g.val) + r.val) % 8
    omega

/-- The 64 groups are the 8 K tiles' 8 groups each: group 8·s + g is group g of tile s. -/
theorem sum_tiles (h : Fin 64 → EReal) :
    ∑ s : Fin 8, ∑ g : Fin 8, h (⟨8 * s.val + g.val, by omega⟩ : Fin 64) = ∑ G : Fin 64, h G := by
  calc ∑ s : Fin 8, ∑ g : Fin 8, h (⟨8 * s.val + g.val, by omega⟩ : Fin 64)
      = ∑ x : Fin 8 × Fin 8, h (finProdFinEquiv x) := by
        rw [Fintype.sum_prod_type]
        refine Finset.sum_congr rfl fun s _ => Finset.sum_congr rfl fun g _ => ?_
        congr 1
        apply Fin.ext
        show 8 * s.val + g.val = g.val + 8 * s.val
        omega
    _ = ∑ G : Fin 64, h G := Equiv.sum_comp (finProdFinEquiv (m := 8) (n := 8)) h

/-- The kernel's result array: `kerVal` of the arguments at every index. -/
abbrev KV (c : Dev nD) : S64x8192.Idx → EReal := fun o =>
  kerVal (m ((c : Thread nD τ).loc main_arg0)) (m ((c : Thread nD τ).loc main_arg1)) (m ((c : Thread nD τ).loc main_arg2))
    (m ((c : Thread nD τ).loc main_arg3)) (m ((c : Thread nD τ).loc main_arg4)) (o 0) (o 1)

/-- At the last point of a column block the accumulator holds all 64 groups' terms of its columns. -/
theorem acc_last (c : Dev nD) (t : Fin cfg0.N) (h7 : t.val % 8 = 7) (p : Fin 64) (q : Fin 2048) :
    (outsAt0 m c t.val t.isLt).2 (ix2 p q)
      = ∑ G : Fin 64, grpTerm (V m c main_v18) (V m c main_arg1) (V m c main_arg3) p (⟨2048 * (t.val / 8) + q.val, by have := t.isLt; have : cfg0.N = 32 := N_0; omega⟩ : Fin 8192) G := by
  have hN : cfg0.N = 32 := N_0
  have ht := t.isLt
  rw [scratch_apply, zero_add, h7, Finset.sum_range, ← sum_tiles]
  refine Finset.sum_congr rfl fun s _ => ?_
  have hs : 8 * (t.val / 8) + s.val < cfg0.N := by omega
  refine (M_apply m c ⟨8 * (t.val / 8) + s.val, hs⟩ p q).trans ?_
  refine Finset.sum_congr rfl fun g _ => ?_
  refine congrArg₂ (grpTerm (V m c main_v18) (V m c main_arg1) (V m c main_arg3) p) (Fin.ext ?_) (Fin.ext ?_)
  · show 2048 * ((8 * (t.val / 8) + s.val) / 8) + q.val = 2048 * (t.val / 8) + q.val
    omega
  · show 8 * ((8 * (t.val / 8) + s.val) % 8) + g.val = 8 * s.val + g.val
    omega

/-- WHAT A FLUSHING POINT WRITES BACK: its column block of `kerVal`. -/
theorem flushed_eq (c : Dev nD) (t : Fin cfg0.N) (hf : (cfg0.win 4).flush t = true) :
    (dats m 0 c).flushed 4 t = ((cfg0.win 4).blk t).view.read (Elt Ideal) (KV m c) := by
  have h7 : t.val % 8 = 7 := (flush0_4 t).mp hf
  have h0 : ¬t.val % 8 = 0 := by omega
  obtain ⟨-, -, -, -, -, -, -, -, e40, e41, -⟩ := idx_facts t
  rw [Cert.KernelIdeal.Value.flushed4_C m c t h0 h7, out_C]
  have hs : k0_pay1 (F := Ideal) (accLocal (xtile (grid0.coords t) (iblk m c 0 t)) (iblk m c 1 t) (iblk m c 2 t))
      (outsAt0 m c (t.val - 1) (Nat.lt_of_le_of_lt (Nat.sub_le _ _) t.isLt)).2 = (outsAt0 m c t.val t.isLt).2 := by
    rw [outsAt0_C m c t h0 h7]
    dsimp only
    exact (sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7)
      (iblk m c 0 t) (iblk m c 1 t) (iblk m c 2 t) (iblk m c 3 t)
      (outsAt0 m c (t.val - 1) (Nat.lt_of_le_of_lt (Nat.sub_le _ _) t.isLt)).2).symm
  rw [hs]
  funext j
  obtain ⟨p, q, rfl⟩ : ∃ (p : Fin 64) (q : Fin 2048), j = ix2 p q := ⟨j 0, j 1, eq_ix2 j⟩
  have hemb : ((cfg0.win 4).blk t).view.emb (ix2 p q) = ix2 p (⟨2048 * (t.val / 8) + q.val, by have := t.isLt; have : cfg0.N = 32 := N_0; omega⟩ : Fin 8192) := by
    funext a
    apply Fin.ext
    match a with
    | ⟨0, _⟩ => show win0_4.index t (0 : Fin 2) * 64 + 1 * p.val = p.val; rw [e40]; omega
    | ⟨1, _⟩ => show win0_4.index t (1 : Fin 2) * 2048 + 1 * q.val = 2048 * (t.val / 8) + q.val; rw [e41]; omega
  show k0_pay2 (F := Ideal) (outsAt0 m c t.val t.isLt).2 (nblk m c t) (ix2 p q) = KV m c (((cfg0.win 4).blk t).view.emb (ix2 p q))
  rw [hemb, pay2_apply, acc_last m c t h7, nblk_apply, Cert.KernelIdeal.HostVal.V_v26]
  have hx : (V m c main_v18 : S64x8192.Idx → EReal) = m ((c : Thread nD τ).loc main_arg0) :=
    funext (Cert.KernelIdeal.HostVal.V_v18 m c)
  rw [hx, V_main_arg1, V_main_arg3]
  rfl

/-- Every index of the result array lies in the block some flushing point writes: column n in the block of point
    8·(n / 2048) + 7. -/
theorem cover (c : Dev nD) (i : S64x8192.Idx) :
    ∃ t : Fin cfg0.N, (cfg0.win 4).flush t = true ∧ i ∈ ((cfg0.win 4).blk t).view.set := by
  have hN : cfg0.N = 32 := N_0
  have h0 : (i 0).val < 64 := (i 0).isLt
  have h1 : (i 1).val < 8192 := (i 1).isLt
  have hlt : 8 * ((i 1).val / 2048) + 7 < cfg0.N := by omega
  obtain ⟨t0, ht0⟩ : ∃ t0 : Fin cfg0.N, t0.val = 8 * ((i 1).val / 2048) + 7 := ⟨⟨_, hlt⟩, rfl⟩
  refine ⟨t0, (flush0_4 t0).mpr (by rw [ht0]; omega), ?_⟩
  obtain ⟨-, -, -, -, -, -, -, -, e40, e41, -⟩ := idx_facts t0
  show i ∈ ((View.whole main_v27).slice (win0_4.rect t0)).set
  rw [View.set_slice_whole, Rect.mem_set_unit]
  intro a
  match a with
  | ⟨0, _⟩ =>
    show win0_4.index t0 (0 : Fin 2) * 64 ≤ (i 0).val ∧ (i 0).val < win0_4.index t0 (0 : Fin 2) * 64 + 64
    rw [e40]; omega
  | ⟨1, _⟩ =>
    show win0_4.index t0 (1 : Fin 2) * 2048 ≤ (i 1).val ∧ (i 1).val < win0_4.index t0 (1 : Fin 2) * 2048 + 2048
    rw [e41, ht0]
    show (8 * ((i 1).val / 2048) + 7) / 8 * 2048 ≤ (i 1).val ∧ (i 1).val < (8 * ((i 1).val / 2048) + 7) / 8 * 2048 + 2048
    omega

/-- THE RESULT ARRAY after the run. -/
theorem final (c : Dev nD) : (dats m 0 c).arrAt 4 cfg0.N = KV m c :=
  (dats m 0 c).arrAt_eq_of_cover 4 (KV m c) (flushed_eq m c) (cover c)

end Cert.KernelIdeal.FinalVal

end
-- ==== Proof.KRun.lean ====
/-
  The kernel's program run to its end: its result array is `WolSpec.kerVal` of its arguments at every index.
-/
import proofs.«417928_j19765439496679_3_alg».proof.Proof.Gen.KernelIdeal.Value
import proofs.«417928_j19765439496679_3_alg».proof.Proof.Spec
import proofs.«417928_j19765439496679_3_alg».proof.Proof.KFinal

noncomputable section

namespace Cert.KernelIdeal.RunVal

open Cert.KernelIdeal Cert.KernelIdeal.Gen Idealize.ShloMosaic Idealize.ShloMosaic.TcCoe Idealize.SL.Sem

/-- Every weakly fair execution of the kernel's program terminates with its result at `WolSpec.kerVal` of the
    arguments, index by index, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v27)
        = (fun o => Cert.WolSpec.kerVal (m ((c : Thread nD τ).loc main_arg0)) (m ((c : Thread nD τ).loc main_arg1))
            (m ((c : Thread nD τ).loc main_arg2)) (m ((c : Thread nD τ).loc main_arg3)) (m ((c : Thread nD τ).loc main_arg4))
            (o 0) (o 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans (Cert.KernelIdeal.FinalVal.final m c), (h c).2⟩)
    (Cert.KernelIdeal.Value.run_blocks m ρ)

end Cert.KernelIdeal.RunVal

end
-- ==== Proof.lean ====
/-
  The kernel's program and the reference's program both run to the end, without fault and with their argument arrays
  unchanged, and over the extended reals they end with equal results whenever the float inputs are finite. The
  reference computes out[p, n] = Σ_i x[p, i] · ((w[i, n] − zp[i/128, n]) · s[i/128, n]) + bias[n]; the kernel sums group
  by group, scales each group's partial product once, and brings the zero points in through the group sums of x. With
  x, the scales and the bias real, the two arrangements are the same real number by distributivity.
-/
import proofs.«417928_j19765439496679_3_alg».proof.Defs
import proofs.«417928_j19765439496679_3_alg».proof.Proof.Gen.Kernel
import proofs.«417928_j19765439496679_3_alg».proof.Proof.Gen.Kernel.Skeleton
import proofs.«417928_j19765439496679_3_alg».proof.Proof.Gen.Kernel.Launch
import proofs.«417928_j19765439496679_3_alg».proof.Proof.Gen.Kernel.Points
import proofs.«417928_j19765439496679_3_alg».proof.Proof.Gen.Kernel.Frame
import proofs.«417928_j19765439496679_3_alg».proof.Proof.Gen.KernelIdeal
import proofs.«417928_j19765439496679_3_alg».proof.Proof.Gen.KernelIdeal.Skeleton
import proofs.«417928_j19765439496679_3_alg».proof.Proof.Gen.KernelIdeal.Launch
import proofs.«417928_j19765439496679_3_alg».proof.Proof.Gen.KernelIdeal.Points
import proofs.«417928_j19765439496679_3_alg».proof.Proof.Gen.KernelIdeal.Frame
import proofs.«417928_j19765439496679_3_alg».proof.Proof.Gen.KernelIdeal.Value
import proofs.«417928_j19765439496679_3_alg».proof.Proof.Gen.ReferenceIdeal
import proofs.«417928_j19765439496679_3_alg».proof.Proof.Gen.Pre_finite_inputs
import proofs.«417928_j19765439496679_3_alg».proof.Proof.Spec
import proofs.«417928_j19765439496679_3_alg».proof.Proof.Algebra
import proofs.«417928_j19765439496679_3_alg».proof.Proof.Finite
import proofs.«417928_j19765439496679_3_alg».proof.Proof.RefRun
import proofs.«417928_j19765439496679_3_alg».proof.Proof.KRun
import Idealize.ShloMosaic.Adequacy
import Idealize.ShloMosaic.Init

noncomputable section

namespace Cert.Proof

open Idealize.ShloMosaic Idealize.SL.Sem Cert.Kernel

/-- The kernel's program as printed runs and leaves its arguments unchanged. -/
theorem frame_k : Cert.frame_Kernel := fun m ρ _ => Cert.Kernel.Gen.frame m ρ

/-- So does the kernel's program read over the extended reals. -/
theorem frame_ki : Cert.frame_KernelIdeal := fun m ρ _ => Cert.KernelIdeal.Gen.frame m ρ

/-- The reference's program is a straight line of host operations: its run to `WolSpec.G`, the result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both programs end at `WolSpec.G` of the kernel's arguments: the reference by its run, its arguments being the
    kernel's; the kernel by its run to `WolSpec.kerVal`, which is `WolSpec.refVal` index by index once the
    precondition has made x, the scales and the bias real-valued. -/
theorem algebraic : Cert.algebraic_KernelIdeal_ReferenceIdeal := by
  intro m ρ m' ρ' hpre hagree
  refine ⟨fun c => Cert.WolSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.RunVal.run m ρ)
    obtain ⟨hx, hs, hb⟩ := Cert.WolFinite.real_of_pre _ _ _ _ _ (hpre c)
    funext o
    exact Cert.WolSpec.kerVal_eq_refVal _ _ _ _ _ hx hs hb (o 0) (o 1)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
